-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S32000000 : Shape := ⟨1, ![32000000]⟩
abbrev S2x1 : Shape := ⟨2, ![2, 1]⟩
abbrev S1 : Shape := ⟨1, ![1]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S32000000 : S_.BroadcastsInDim S32000000 (![] : Fin 0 → Fin S32000000.rank)
  reducesTo_S32000000_S_d0 : S32000000.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1000000x2 .f32) (main_arg1 : FVec F S32000000 .f32) (main_arg2 : IVec S32000000 32) (main_arg3 : IVec S32000000 32) (main_arg4 : FVec F S2x1 .f32) (main_arg5 : FVec F S1 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S32000000 .f32 := Host.absf main_arg1
  let main_cst_0 : FVec F S_ .f32 := constant S_ .f32 0x7F800000#32
  let main_v5 : FVec F S32000000 .f32 := broadcastInDim S32000000 ![] bcast_S_S32000000 main_cst_0
  let main_v6 : IVec S32000000 1 := cmpf .olt main_v4 main_v5
  let main_c_1 : IVec S_ 1 := constantI S_ 1 1#1
  let main_v7 : IVec S_ 1 := (fun x v => Host.reduce IntOp.andi x v reducesTo_S32000000_S_d0 h_S_) main_v6 main_c_1
  let main_v8 : IVec S_ 1 := andi main_v3 main_v7
  let main_v9 : FVec F S2x1 .f32 := Host.absf main_arg4
  let main_cst_2 : FVec F S_ .f32 := constant S_ .f32 0x7F800000#32
  let main_v10 : FVec F S2x1 .f32 := broadcastInDim S2x1 ![] bcast_S_S2x1 main_cst_2
  let main_v11 : IVec S2x1 1 := cmpf .olt main_v9 main_v10
  let main_c_3 : IVec S_ 1 := constantI S_ 1 1#1
  let main_v12 : IVec S_ 1 := (fun x v => Host.reduce IntOp.andi x v reducesTo_S2x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1000000x2 : Shape := ⟨2, ![1000000, 2]⟩
abbrev S32000000 : Shape := ⟨1, ![32000000]⟩
abbrev S2x1 : Shape := ⟨2, ![2, 1]⟩
abbrev S1 : Shape := ⟨1, ![1]⟩
abbrev S_ : Shape := ⟨0, ![]⟩
abbrev S1000000 : Shape := ⟨1, ![1000000]⟩
abbrev S32000000x1 : Shape := ⟨2, ![32000000, 1]⟩
abbrev S2x1000000 : Shape := ⟨2, ![2, 1000000]⟩
abbrev S2x1048576 : Shape := ⟨2, ![2, 1048576]⟩
abbrev S1x1000000 : Shape := ⟨2, ![1, 1000000]⟩
abbrev S1x1048576 : Shape := ⟨2, ![1, 1048576]⟩
abbrev S2x65536 : Shape := ⟨2, ![2, 65536]⟩
abbrev S1x65536 : Shape := ⟨2, ![1, 65536]⟩
abbrev S1x1 : Shape := ⟨2, ![1, 1]⟩
abbrev S250000x128 : Shape := ⟨2, ![250000, 128]⟩
abbrev S10000x128 : Shape := ⟨2, ![10000, 128]⟩

abbrev nBuf : Space → Nat
  | .hbm => 55
  | .vmem => 20
  | .smem => 0
  | _ => 0

abbrev bufTy : (tb : Table) → Fin (tcTables nBuf tb) → BufTy
  | .hbm, ⟨0, _⟩ => ⟨S1000000x2, .f32⟩
  | .hbm, ⟨1, _⟩ => ⟨S32000000, .f32⟩
  | .hbm, ⟨2, _⟩ => ⟨S32000000, .i32⟩
  | .hbm, ⟨3, _⟩ => ⟨S32000000, .i32⟩
  | .hbm, ⟨4, _⟩ => ⟨S2x1, .f32⟩
  | .hbm, ⟨5, _⟩ => ⟨S1, .f32⟩
  | .hbm, ⟨6, _⟩ => ⟨S_, .f32⟩
  | .hbm, ⟨7, _⟩ => ⟨S32000000, .f32⟩
  | .hbm, ⟨8, _⟩ => ⟨S_, .f32⟩
  | .hbm, ⟨9, _⟩ => ⟨S1000000, .f32⟩
  | .hbm, ⟨10, _⟩ => ⟨S32000000x1, .i32⟩
  | .hbm, ⟨11, _⟩ => ⟨S1000000, .f32⟩
  | .hbm, ⟨12, _⟩ => ⟨S_, .f32⟩
  | .hbm, ⟨13, _⟩ => ⟨S1000000, .f32⟩
  | .hbm, ⟨14, _⟩ => ⟨S32000000x1, .i32⟩
  | .hbm, ⟨15, _⟩ => ⟨S1000000, .f32⟩
  | .hbm, ⟨16, _⟩ => ⟨S2x1000000, .f32⟩
  | .hbm, ⟨17, _⟩ => ⟨S_, .i32⟩
  | .hbm, ⟨18, _⟩ => ⟨S_, .f32⟩
  | .hbm, ⟨19, _⟩ => ⟨S2x1048576, .f32⟩
  | .hbm, ⟨20, _⟩ => ⟨S1x1000000, .f32⟩
  | .hbm, ⟨21, _⟩ => ⟨S_, .i32⟩
  | .hbm, ⟨22, _⟩ => ⟨S_, .f32⟩
  | .hbm, ⟨23, _⟩ => ⟨S1x1048576, .f32⟩
  | .hbm, ⟨24, _⟩ => ⟨S1x1048576, .f32⟩
  | .hbm, ⟨25, _⟩ => ⟨S1x1000000, .f32⟩
  | .hbm, ⟨26, _⟩ => ⟨S1000000, .f32⟩
  | .hbm, ⟨27, _⟩ => ⟨S_, .i32⟩
  | .hbm, ⟨28, _⟩ => ⟨S32000000, .i32⟩
  | .hbm, ⟨29, _⟩ => ⟨S32000000, .i1⟩
  | .hbm, ⟨30, _⟩ => ⟨S_, .i32⟩
  | .hbm, ⟨31, _⟩ => ⟨S32000000, .i32⟩
  | .hbm, ⟨32, _⟩ => ⟨S32000000, .i32⟩
  | .hbm, ⟨33, _⟩ => ⟨S32000000, .i32⟩
  | .hbm, ⟨34, _⟩ => ⟨S32000000x1, .i32⟩
  | .hbm, ⟨35, _⟩ => ⟨S32000000, .f32⟩
  | .hbm, ⟨36, _⟩ => ⟨S250000x128, .f32⟩
  | .hbm, ⟨37, _⟩ => ⟨S250000x128, .f32⟩
  | .hbm, ⟨38, _⟩ => ⟨S250000x128, .f32⟩
  | .hbm, ⟨39, _⟩ => ⟨S32000000, .f32⟩
  | .hbm, ⟨40, _⟩ => ⟨S_, .f32⟩
  | .hbm, ⟨41, _⟩ => ⟨S1000000, .f32⟩
  | .hbm, ⟨42, _⟩ => ⟨S32000000x1, .i32⟩
  | .hbm, ⟨43, _⟩ => ⟨S1000000, .f32⟩
  | .hbm, ⟨44, _⟩ => ⟨S1x1000000, .f32⟩
  | .hbm, ⟨45, _⟩ => ⟨S_, .i32⟩
  | .hbm, ⟨46, _⟩ => ⟨S_, .f32⟩
  | .hbm, ⟨47, _⟩ => ⟨S1x1048576, .f32⟩
  | .hbm, ⟨48, _⟩ => ⟨S1x1000000, .f32⟩
  | .hbm, ⟨49, _⟩ => ⟨S_, .i32⟩
  | .hbm, ⟨50, _⟩ => ⟨S_, .f32⟩
  | .hbm, ⟨51, _⟩ => ⟨S1x1048576, .f32⟩
  | .hbm, ⟨52, _⟩ => ⟨S1x1, .f32⟩
  | .hbm, ⟨53, _⟩ => ⟨S1x1048576, .f32⟩
  | .hbm, ⟨54, _⟩ => ⟨S1x1000000, .f32⟩
  | .local _ .vmem, ⟨0, _⟩ => ⟨S2x65536, .f32⟩
  | .local _ .vmem, ⟨1, _⟩ => ⟨S2x65536, .f32⟩
  | .local _ .vmem, ⟨2, _⟩ => ⟨S1x65536, .f32⟩
  | .local _ .vmem, ⟨3, _⟩ => ⟨S1x65536, .f32⟩
  | .local _ .vmem, ⟨4, _⟩ => ⟨S2x1, .f32⟩
  | .local _ .vmem, ⟨5, _⟩ => ⟨S1x65536, .f32⟩
  | .local _ .vmem, ⟨6, _⟩ => ⟨S1x65536, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x65536, .f32⟩
  | .local _ .vmem, ⟨14, _⟩ => ⟨S1x65536, .f32⟩
  | .local _ .vmem, ⟨15, _⟩ => ⟨S1x65536, .f32⟩
  | .local _ .vmem, ⟨16, _⟩ => ⟨S1x65536, .f32⟩
  | .local _ .vmem, ⟨17, _⟩ => ⟨S1x1, .f32⟩
  | .local _ .vmem, ⟨18, _⟩ => ⟨S1x65536, .f32⟩
  | .local _ .vmem, ⟨19, _⟩ => ⟨S1x65536, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_call2_v0 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_call3_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1x65536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x65536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x65536 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S32000000 : S_.BroadcastsInDim S32000000 (![] : Fin 0 → Fin S32000000.rank)
  bcast_S_S1000000 : S_.BroadcastsInDim S1000000 (![] : Fin 0 → Fin S1000000.rank)
  bcast_S32000000_S32000000x1_0 : S32000000.BroadcastsInDim S32000000x1 (![0] : Fin 1 → Fin S32000000x1.rank)
  transposes_S1000000x2_S2x1000000_1_0 : S1000000x2.Transposes [1, 0] S2x1000000
  pads_S2x1000000_S2x1048576_000_0485760 : S2x1000000.Pads (![0, 0] : Fin 2 → Nat) ![0, 48576] ![0, 0] S2x1048576
  h_S_ : 0 < S_.numel
  shapeCasts_S1000000_S1x1000000 : S1000000.ShapeCasts S1x1000000
  pads_S1x1000000_S1x1048576_000_0485760 : S1x1000000.Pads (![0, 0] : Fin 2 → Nat) ![0, 48576] ![0, 0] S1x1048576
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  inb_S2x65536_S2x65536_0_0 : ∀ a, (![0, 0] : Fin 2 → Nat) a + S2x65536.size a ≤ S2x65536.size a
  h_S2x65536 : 0 < S2x65536.numel
  shapeCasts_S2x65536_S2x65536 : S2x65536.ShapeCasts S2x65536
  inb_S2x1_S2x1_0_0 : ∀ a, (![0, 0] : Fin 2 → Nat) a + S2x1.size a ≤ S2x1.size a
  h_S2x1 : 0 < S2x1.numel
  slices_S2x1_o0_0_S1x1 : S2x1.Slices ![0, 0] S1x1
  inpos_S1x1_p0_0 : ∀ a, (![0, 0] : Fin 2 → Nat) a < S1x1.size a
  slices_S2x1_o1_0_S1x1 : S2x1.Slices ![1, 0] S1x1
  slices_S2x65536_o0_0_S1x65536 : S2x65536.Slices ![0, 0] S1x65536
  slices_S2x65536_o1_0_S1x65536 : S2x65536.Slices ![1, 0] S1x65536
  slices_S1x1048576_S1x1000000_0_0 : S1x1048576.Slices ![0, 0] S1x1000000
  shapeCasts_S1x1000000_S1000000 : S1x1000000.ShapeCasts S1000000
  shapeCasts_S32000000_S250000x128 : S32000000.ShapeCasts S250000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S250000x128_S32000000 : S250000x128.ShapeCasts S32000000
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  scatter_S1000000_S32000000x1_S32000000_n_0_0_1_wf : ScatterDims.WF S1000000 S32000000x1 S32000000 [] [0] [0] 1
  gather_S1000000_S32000000x1_S32000000_n_0_n_n_0_1_1_wf : GatherDims.WF S1000000 S32000000x1 S32000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x65536.size a ≤ S2x1048576.size a
  hwx0_0 : ∀ i : grid0.Coords, EltTy.bits .f32 = 32 ∨ (Rect.block (s := S2x1048576) S2x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x1048576.size a
  hwx0_1 : ∀ i : grid0.Coords, EltTy.bits .f32 = 32 ∨ (Rect.block (s := S1x1048576) S1x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1.size a ≤ S2x1.size a
  hwx0_2 : ∀ i : grid0.Coords, EltTy.bits .f32 = 32 ∨ (Rect.block (s := S2x1) S2x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x65536.size a ≤ S1x1048576.size a
  hwx0_3 : ∀ i : grid0.Coords, EltTy.bits .f32 = 32 ∨ (Rect.block (s := S1x1048576) S1x65536.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S250000x128.size a
  hwx1_0 : ∀ i : grid1.Coords, EltTy.bits .f32 = 32 ∨ (Rect.block (s := S250000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S250000x128.size a
  hwx1_1 : ∀ i : grid1.Coords, EltTy.bits .f32 = 32 ∨ (Rect.block (s := S250000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S250000x128.size a
  hwx1_2 : ∀ i : grid1.Coords, EltTy.bits .f32 = 32 ∨ (Rect.block (s := S250000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x65536.size a ≤ S1x1048576.size a
  hwx2_0 : ∀ i : grid2.Coords, EltTy.bits .f32 = 32 ∨ (Rect.block (s := S1x1048576) S1x65536.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x65536.size a ≤ S1x1048576.size a
  hwx2_1 : ∀ i : grid2.Coords, EltTy.bits .f32 = 32 ∨ (Rect.block (s := S1x1048576) S1x65536.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x65536.size a ≤ S1x1048576.size a
  hwx2_3 : ∀ i : grid2.Coords, EltTy.bits .f32 = 32 ∨ (Rect.block (s := S1x1048576) S1x65536.size (cc2_transform_3 i) (hinb2_3 i)).WholeWords (EltTy.packing .f32)

variable [Facts₀]

def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf
def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf

abbrev win0_0 : Pipeline.Window sig grid0 :=
  Pipeline.Window.ofSpec (Memref.whole main_v8) S2x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x65536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S1x65536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x65536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x65536.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1000000x2 : Shape := ⟨2, ![1000000, 2]⟩
abbrev S32000000 : Shape := ⟨1, ![32000000]⟩
abbrev S2x1 : Shape := ⟨2, ![2, 1]⟩
abbrev S1 : Shape := ⟨1, ![1]⟩
abbrev S_ : Shape := ⟨0, ![]⟩
abbrev S1000000 : Shape := ⟨1, ![1000000]⟩
abbrev S32000000x1 : Shape := ⟨2, ![32000000, 1]⟩
abbrev S1000000x1 : Shape := ⟨2, ![1000000, 1]⟩
abbrev S1x1 : Shape := ⟨2, ![1, 1]⟩
abbrev S1x1000000 : Shape := ⟨2, ![1, 1000000]⟩

abbrev nBuf : Space → Nat
  | .hbm => 51
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S32000000, .f32⟩
  | .hbm, ⟨2, _⟩ => ⟨S32000000, .i32⟩
  | .hbm, ⟨3, _⟩ => ⟨S32000000, .i32⟩
  | .hbm, ⟨4, _⟩ => ⟨S2x1, .f32⟩
  | .hbm, ⟨5, _⟩ => ⟨S1, .f32⟩
  | .hbm, ⟨6, _⟩ => ⟨S_, .f32⟩
  | .hbm, ⟨7, _⟩ => ⟨S32000000, .f32⟩
  | .hbm, ⟨8, _⟩ => ⟨S_, .f32⟩
  | .hbm, ⟨9, _⟩ => ⟨S1000000, .f32⟩
  | .hbm, ⟨10, _⟩ => ⟨S32000000x1, .i32⟩
  | .hbm, ⟨11, _⟩ => ⟨S1000000, .f32⟩
  | .hbm, ⟨12, _⟩ => ⟨S_, .f32⟩
  | .hbm, ⟨13, _⟩ => ⟨S1000000, .f32⟩
  | .hbm, ⟨14, _⟩ => ⟨S32000000x1, .i32⟩
  | .hbm, ⟨15, _⟩ => ⟨S1000000, .f32⟩
  | .hbm, ⟨16, _⟩ => ⟨S_, .f32⟩
  | .hbm, ⟨17, _⟩ => ⟨S_, .f32⟩
  | .hbm, ⟨18, _⟩ => ⟨S1000000, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S_, .f32⟩
  | .hbm, ⟨23, _⟩ => ⟨S1000000, .f32⟩
  | .hbm, ⟨24, _⟩ => ⟨S1000000, .f32⟩
  | .hbm, ⟨25, _⟩ => ⟨S1000000, .f32⟩
  | .hbm, ⟨26, _⟩ => ⟨S1000000x1, .f32⟩
  | .hbm, ⟨27, _⟩ => ⟨S1000000x2, .f32⟩
  | .hbm, ⟨28, _⟩ => ⟨S1000000x2, .f32⟩
  | .hbm, ⟨29, _⟩ => ⟨S1000000x1, .f32⟩
  | .hbm, ⟨30, _⟩ => ⟨S_, .i32⟩
  | .hbm, ⟨31, _⟩ => ⟨S32000000, .i32⟩
  | .hbm, ⟨32, _⟩ => ⟨S32000000, .i1⟩
  | .hbm, ⟨33, _⟩ => ⟨S_, .i32⟩
  | .hbm, ⟨34, _⟩ => ⟨S32000000, .i32⟩
  | .hbm, ⟨35, _⟩ => ⟨S32000000, .i32⟩
  | .hbm, ⟨36, _⟩ => ⟨S32000000, .i32⟩
  | .hbm, ⟨37, _⟩ => ⟨S32000000x1, .i32⟩
  | .hbm, ⟨38, _⟩ => ⟨S32000000x1, .f32⟩
  | .hbm, ⟨39, _⟩ => ⟨S32000000x1, .f32⟩
  | .hbm, ⟨40, _⟩ => ⟨S32000000x1, .f32⟩
  | .hbm, ⟨41, _⟩ => ⟨S_, .f32⟩
  | .hbm, ⟨42, _⟩ => ⟨S1000000x1, .f32⟩
  | .hbm, ⟨43, _⟩ => ⟨S32000000x1, .i32⟩
  | .hbm, ⟨44, _⟩ => ⟨S1000000x1, .f32⟩
  | .hbm, ⟨45, _⟩ => ⟨S1000000x1, .f32⟩
  | .hbm, ⟨46, _⟩ => ⟨S1000000x1, .f32⟩
  | .hbm, ⟨47, _⟩ => ⟨S1x1, .f32⟩
  | .hbm, ⟨48, _⟩ => ⟨S1000000x1, .f32⟩
  | .hbm, ⟨49, _⟩ => ⟨S1000000x1, .f32⟩
  | .hbm, ⟨50, _⟩ => ⟨S1x1000000, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)
  bcast_S_S1000000 : S_.BroadcastsInDim S1000000 (![] : Fin 0 → Fin S1000000.rank)
  bcast_S32000000_S32000000x1_0 : S32000000.BroadcastsInDim S32000000x1 (![0] : Fin 1 → Fin S32000000x1.rank)
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  transposes_S1000000x1_S1x1000000_1_0 : S1000000x1.Transposes [1, 0] S1x1000000
  scatter_S1000000_S32000000x1_S32000000_n_0_0_1_wf : ScatterDims.WF S1000000 S32000000x1 S32000000 [] [0] [0] 1
  dot_S1000000x2_S2x1_S1000000x1_1_0_0_1_n_n_wf : DotDims.WF S1000000x2 S2x1 S1000000x1 [1] [0] [0] [1] [] []
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1

variable [Facts₀]

def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf
def dot_S1000000x2_S2x1_S1000000x1_1_0_0_1_n_n : DotDims S1000000x2 S2x1 S1000000x1 where
  lhsContracting := [1]
  rhsContracting := [0]
  lhsNonContracting := [0]
  rhsNonContracting := [1]
  lhsBatch := []
  rhsBatch := []
  wf := dot_S1000000x2_S2x1_S1000000x1_1_0_0_1_n_n_wf
def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf

class Facts : Prop extends Facts₀ where

variable [Facts]
-- ==== Proof.Spec.lean ====
/-
  What the edge-weighted graph convolution computes, index by index over the extended reals, written once for both programs.

  Per node `p` the projected feature is `(x[p,0]·W[0] + x[p,1]·W[1]) · rsqrt(max(degOut p, 1))`; per edge `e` the message is the
  feature of the (wrapped, clamped) source node times the edge weight; per node the messages of the edges that end there are summed,
  scaled by `rsqrt(max(degIn p, 1))`, and the bias is added. The degree vectors, the gather of the features at the source nodes and the
  sum over the incoming edges are kept as the host operations both programs print (a float scatter-add of ones, a take, a float
  scatter-add): nothing here opens them.
-/
import proofs.«174512_j52106543235761_1_alg».proof.Proof.Gen.KernelIdeal
import Idealize.ShloMosaic.PureOps.Ideal
import Idealize.ShloMosaic.Lib.ValueIdx

noncomputable section

namespace Cert.KernelIdeal.Spec

open Cert.KernelIdeal Cert.KernelIdeal.Gen Idealize.ShloMosaic Idealize.ShloMosaic.ValueIdx

/-- The float pattern of `1.0`, kept as its word: both programs compare the degrees against this same literal. -/
abbrev one32 : EReal := Ideal.ofBits .f32 0x3F800000#32

/-- A degree vector as both programs print it: ones scatter-added into zeros at the column of edge endpoints `x`. -/
def deg (x : IVec S32000000 32) : FVec Ideal S1000000 .f32 :=
  Host.scatterAdd scatter_S1000000_S32000000x1_S32000000_n_0_0_1
    (broadcastInDim S1000000 ![] bcast_S_S1000000 (constant S_ .f32 0x00000000#32))
    (broadcastInDim S32000000x1 ![0] bcast_S32000000_S32000000x1_0 x)
    (broadcastInDim S32000000 ![] bcast_S_S32000000 (constant S_ .f32 0x3F800000#32))

/-- jnp's wrap of a negative index: `x < 0 ? x + 1000000 : x`, wordwise. -/
def wrapIdx (x : IVec S32000000 32) : IVec S32000000 32 :=
  select (cmpi .slt x (broadcastInDim S32000000 ![] bcast_S_S32000000 (constantI S_ 32 0#32)))
    (addi x (broadcastInDim S32000000 ![] bcast_S_S32000000 (constantI S_ 32 1000000#32))) x

/-- The kernel's feature of node `p`: the two-term projection, then the source-degree scale. -/
def featAt (x0 : FVec Ideal S1000000x2 .f32) (x4 : FVec Ideal S2x1 .f32) (dout : FVec Ideal S1000000 .f32) (p : Fin 1000000) : EReal :=
  (x0 (ix2 p (0 : Fin 2)) * x4 (ix2 (0 : Fin 2) (0 : Fin 1)) + x0 (ix2 p (1 : Fin 2)) * x4 (ix2 (1 : Fin 2) (0 : Fin 1)))
    * Ideal.rsqrt (max (dout (ix1 p)) one32)

/-- The same as a vector over the nodes. -/
def feat (x0 : FVec Ideal S1000000x2 .f32) (x4 : FVec Ideal S2x1 .f32) (dout : FVec Ideal S1000000 .f32) : FVec Ideal S1000000 .f32 :=
  fun n => featAt x0 x4 dout ⟨(n 0).val, (n 0).isLt⟩

theorem feat_apply (x0 : FVec Ideal S1000000x2 .f32) (x4 : FVec Ideal S2x1 .f32) (dout : FVec Ideal S1000000 .f32) (p : Fin 1000000) :
    feat x0 x4 dout (ix1 p) = featAt x0 x4 dout p := rfl

/-- The reference's feature of node `p`: each coordinate scaled first, then contracted with the weight column. -/
def featRefAt (x0 : FVec Ideal S1000000x2 .f32) (x4 : FVec Ideal S2x1 .f32) (dout : FVec Ideal S1000000 .f32) (p : Fin 1000000) : EReal :=
  (x0 (ix2 p (0 : Fin 2)) * Ideal.rsqrt (max (dout (ix1 p)) one32)) * x4 (ix2 (0 : Fin 2) (0 : Fin 1))
    + (x0 (ix2 p (1 : Fin 2)) * Ideal.rsqrt (max (dout (ix1 p)) one32)) * x4 (ix2 (1 : Fin 2) (0 : Fin 1))

/-- The same as a vector over the nodes. -/
def featRef (x0 : FVec Ideal S1000000x2 .f32) (x4 : FVec Ideal S2x1 .f32) (dout : FVec Ideal S1000000 .f32) : FVec Ideal S1000000 .f32 :=
  fun n => featRefAt x0 x4 dout ⟨(n 0).val, (n 0).isLt⟩

theorem featRef_apply (x0 : FVec Ideal S1000000x2 .f32) (x4 : FVec Ideal S2x1 .f32) (dout : FVec Ideal S1000000 .f32) (p : Fin 1000000) :
    featRef x0 x4 dout (ix1 p) = featRefAt x0 x4 dout p := rfl

/-- The aggregated messages: per edge the feature of its source node times its weight, summed at its destination node. -/
def aggOf (ft : FVec Ideal S1000000 .f32) (x1 : FVec Ideal S32000000 .f32) (x2 x3 : IVec S32000000 32) : FVec Ideal S1000000 .f32 :=
  Host.scatterAdd scatter_S1000000_S32000000x1_S32000000_n_0_0_1
    (broadcastInDim S1000000 ![] bcast_S_S1000000 (constant S_ .f32 0x00000000#32))
    (broadcastInDim S32000000x1 ![0] bcast_S32000000_S32000000x1_0 x3)
    (mulf (Host.gather gather_S1000000_S32000000x1_S32000000_n_0_n_n_0_1_1 ft
      (broadcastInDim S32000000x1 ![0] bcast_S32000000_S32000000x1_0 (wrapIdx x2))) x1)

/-- The result row at node `q`: the aggregate scaled by the destination-degree factor, plus the bias. -/
def outAt (ft : FVec Ideal S1000000 .f32) (x1 : FVec Ideal S32000000 .f32) (x2 x3 : IVec S32000000 32) (x5 : FVec Ideal S1 .f32)
    (q : Fin 1000000) : EReal :=
  aggOf ft x1 x2 x3 (ix1 q) * Ideal.rsqrt (max (deg x3 (ix1 q)) one32) + x5 (ix1 (0 : Fin 1))

/-- The whole result, `[1, 1000000]`. -/
def outOf (ft : FVec Ideal S1000000 .f32) (x1 : FVec Ideal S32000000 .f32) (x2 x3 : IVec S32000000 32) (x5 : FVec Ideal S1 .f32) :
    FVec Ideal S1x1000000 .f32 :=
  fun i => outAt ft x1 x2 x3 x5 ⟨(i 1).val, (i 1).isLt⟩

theorem outOf_apply (ft : FVec Ideal S1000000 .f32) (x1 : FVec Ideal S32000000 .f32) (x2 x3 : IVec S32000000 32) (x5 : FVec Ideal S1 .f32)
    (q : Fin 1000000) : outOf ft x1 x2 x3 x5 (ix2 (0 : Fin 1) q) = outAt ft x1 x2 x3 x5 q := rfl

end Cert.KernelIdeal.Spec

end
-- ==== Proof.HostChain.lean ====
/-
  The kernel program's host operations between its three launches, read as values. At each launch's entry the arrays it reads are
  named functions of what came before: the padded transposed positions and the padded degree row before the first launch; the
  gathered features and the weights, both re-laid `[32000000] → [250000, 128]`, before the second; the padded aggregate row, the padded
  destination-degree row and the bias as `[1, 1]` before the third; and the result is the first 1000000 columns of the third
  launch's output row.
-/
import proofs.«174512_j52106543235761_1_alg».proof.Proof.Gen.KernelIdeal.Frame
import proofs.«174512_j52106543235761_1_alg».proof.Proof.Spec
import Idealize.ShloMosaic.Lib.StableHlo.Run

set_option maxRecDepth 16384

noncomputable section

namespace Cert.KernelIdeal.HostChain

open Cert.KernelIdeal Cert.KernelIdeal.Gen Cert.KernelIdeal.Spec
open Idealize.ShloMosaic Idealize.ShloMosaic.TcCoe Idealize.SL.Sem Idealize.ShloMosaic.StableHlo

/-- The positions transposed to `[2, 1000000]` and padded with zeros to `[2, 1048576]`. -/
def posPad (x0 : FVec Ideal S1000000x2 .f32) : FVec Ideal S2x1048576 .f32 :=
  pad S2x1048576 ![0, 0] ![0, 48576] ![0, 0] (transpose S2x1000000 [1, 0] x0 transposes_S1000000x2_S2x1000000_1_0)
    (sitofp .f32 (constantI S_ 32 0#32)) pads_S2x1000000_S2x1048576_000_0485760 h_S_

/-- A node vector laid as a row `[1, 1000000]` and padded with zeros to `[1, 1048576]`. -/
def rowPad (d : FVec Ideal S1000000 .f32) : FVec Ideal S1x1048576 .f32 :=
  pad S1x1048576 ![0, 0] ![0, 48576] ![0, 0] (shapeCast S1x1000000 d shapeCasts_S1000000_S1x1000000)
    (sitofp .f32 (constantI S_ 32 0#32)) pads_S1x1000000_S1x1048576_000_0485760 h_S_

/-- The first 1000000 columns of a padded row. -/
def rowCut (r : FVec Ideal S1x1048576 .f32) : FVec Ideal S1x1000000 .f32 :=
  extractStridedSlice S1x1000000 ![0, 0] r slices_S1x1048576_S1x1000000_0_0

/-- The first 1000000 columns of a padded row, as a node vector. -/
def unrow (r : FVec Ideal S1x1048576 .f32) : FVec Ideal S1000000 .f32 :=
  shapeCast S1000000 (rowCut r) shapeCasts_S1x1000000_S1000000

variable (m : (ℓ : Loc nD τ sig) → Buf (Elt Ideal) ℓ) (ρ : Dev nD → PrngReg)

/-! ## Before the first launch -/

theorem v8_entry (c : Dev nD) : V4 m ρ c main_v8 = posPad (m ((c : Thread nD τ).loc main_arg0)) := by
  dsimp only [V4, W4, W3, W2, W1]
  after_results
  rfl

/-- The degree vector the first stretch computes from the source column. -/
theorem h0_v3 (U : Valuation τ sig (Elt Ideal)) (x : IVec S32000000 32) (hx : U (Proc.devRef .tc main_arg2) = x) :
    StableHlo.after hostOps0 U (Proc.devRef .tc main_v3) = deg x := by
  subst hx
  after_results
  rfl

/-- The padding of the positions leaves the degree vector where it is. -/
theorem h01_v3 (U : Valuation τ sig (Elt Ideal)) :
    StableHlo.after hostOps0_1 U (Proc.devRef .tc main_v3) = U (Proc.devRef .tc main_v3) := by
  after_results

/-- The degree vector laid as a row. -/
theorem h02_v9 (U : Valuation τ sig (Elt Ideal)) (d : FVec Ideal S1000000 .f32) (hd : U (Proc.devRef .tc main_v3) = d) :
    StableHlo.after hostOps0_2 U (Proc.devRef .tc main_v9) = shapeCast S1x1000000 d shapeCasts_S1000000_S1x1000000 := by
  subst hd
  after_results
  rfl

/-- The integer zero the row's padding value is converted from. -/
theorem h02_c2 (U : Valuation τ sig (Elt Ideal)) :
    StableHlo.after hostOps0_2 U (Proc.devRef .tc main_c_2) = constantI S_ 32 0#32 := by
  after_results

/-- The row padded with the converted zero. -/
theorem h03_v10 (U : Valuation τ sig (Elt Ideal)) (x : FVec Ideal S1x1000000 .f32) (k : IVec S_ 32)
    (hx : U (Proc.devRef .tc main_v9) = x) (hk : U (Proc.devRef .tc main_c_2) = k) :
    StableHlo.after hostOps0_3 U (Proc.devRef .tc main_v10)
      = pad S1x1048576 ![0, 0] ![0, 48576] ![0, 0] x (sitofp .f32 k) pads_S1x1000000_S1x1048576_000_0485760 h_S_ := by
  subst hx hk
  after_results
  rfl

theorem v10_entry (c : Dev nD) : V4 m ρ c main_v10 = rowPad (deg (m ((c : Thread nD τ).loc main_arg2))) := by
  unfold rowPad
  exact h03_v10 (W3 m ρ c) _ _
    (h02_v9 (W2 m ρ c) _ ((h01_v3 (W1 m ρ c)).trans (h0_v3 (W0 m ρ c) _ rfl)))
    (h02_c2 (W2 m ρ c))

theorem arg4_entry (c : Dev nD) : V4 m ρ c main_arg4 = m ((c : Thread nD τ).loc main_arg4) := by
  dsimp only [V4, W4, W3, W2, W1]
  after_results

/-! ## Buffers carried unchanged across stretches and launches -/

theorem W0_arg (c : Dev nD) (b : Ref sig .tc) : W0 m ρ c (Proc.devRef .tc b) = m ((c : Thread nD τ).loc b) := rfl

/-- The weights are still the argument when the second launch's operands are prepared. -/
theorem arg1_mid (c : Dev nD) : W5 m ρ c (Proc.devRef .tc main_arg1) = m ((c : Thread nD τ).loc main_arg1) := by
  rw [W5_of_ne m ρ c main_arg1 (by decide)]
  dsimp only [W4, W3, W2, W1]
  after_results

/-- So are the source indices. -/
theorem arg2_mid (c : Dev nD) : W5 m ρ c (Proc.devRef .tc main_arg2) = m ((c : Thread nD τ).loc main_arg2) := by
  rw [W5_of_ne m ρ c main_arg2 (by decide)]
  dsimp only [W4, W3, W2, W1]
  after_results

/-- The destination indices are still the argument after the second launch. -/
theorem arg3_late (c : Dev nD) : W7 m ρ c (Proc.devRef .tc main_arg3) = m ((c : Thread nD τ).loc main_arg3) := by
  rw [W7_of_ne m ρ c main_arg3 (by decide)]
  dsimp only [W6]
  after_results
  rw [W5_of_ne m ρ c main_arg3 (by decide)]
  dsimp only [W4, W3, W2, W1]
  after_results

/-- The bias is still the argument when the third launch's operands are prepared. -/
theorem arg5_late (c : Dev nD) : W11 m ρ c (Proc.devRef .tc main_arg5) = m ((c : Thread nD τ).loc main_arg5) := by
  dsimp only [W11, W10, W9, W8]
  after_results
  rw [W7_of_ne m ρ c main_arg5 (by decide)]
  dsimp only [W6]
  after_results
  rw [W5_of_ne m ρ c main_arg5 (by decide)]
  dsimp only [W4, W3, W2, W1]
  after_results

/-- The destination-degree vector as the first stretch leaves it. -/
theorem h0_v6 (U : Valuation τ sig (Elt Ideal)) (x : IVec S32000000 32) (hx : U (Proc.devRef .tc main_arg3) = x) :
    StableHlo.after hostOps0 U (Proc.devRef .tc main_v6) = deg x := by
  subst hx; after_results; rfl

/-- The destination-degree vector, computed before the first launch, is still there after the second launch. -/
theorem v6_late (c : Dev nD) : W9 m ρ c (Proc.devRef .tc main_v6) = deg (m ((c : Thread nD τ).loc main_arg3)) := by
  dsimp only [W9, W8]
  after_results
  rw [W7_of_ne m ρ c main_v6 (by decide)]
  dsimp only [W6]
  after_results
  rw [W5_of_ne m ρ c main_v6 (by decide)]
  dsimp only [W4, W3, W2]
  after_results
  exact h0_v6 (W0 m ρ c) _ rfl

/-! ## One stretch at a time, from any contents -/

/-- The weights re-laid as `[250000, 128]`. -/
theorem h1_v22 (U : Valuation τ sig (Elt Ideal)) (x : FVec Ideal S32000000 .f32) (hx : U (Proc.devRef .tc main_arg1) = x) :
    StableHlo.after hostOps1 U (Proc.devRef .tc main_v22) = shapeCast S250000x128 x shapeCasts_S32000000_S250000x128 := by
  subst hx; after_results; rfl

/-- The aggregate: the flattened messages scatter-added at the destination nodes, laid as a row. -/
theorem h2_v28 (U : Valuation τ sig (Elt Ideal)) (x3 : IVec S32000000 32) (y : FVec Ideal S250000x128 .f32)
    (hx3 : U (Proc.devRef .tc main_arg3) = x3) (hy : U (Proc.devRef .tc main_v23) = y) :
    StableHlo.after hostOps2 U (Proc.devRef .tc main_v28) =
      shapeCast S1x1000000 (Host.scatterAdd scatter_S1000000_S32000000x1_S32000000_n_0_0_1
        (broadcastInDim S1000000 ![] bcast_S_S1000000 (constant S_ .f32 0x00000000#32))
        (broadcastInDim S32000000x1 ![0] bcast_S32000000_S32000000x1_0 x3)
        (shapeCast S32000000 y shapeCasts_S250000x128_S32000000)) shapeCasts_S1000000_S1x1000000 := by
  subst hx3 hy; after_results; rfl

theorem h2_c6 (U : Valuation τ sig (Elt Ideal)) : StableHlo.after hostOps2 U (Proc.devRef .tc main_c_6) = constantI S_ 32 0#32 := by
  after_results

/-- The aggregate row padded. -/
theorem h21_v29 (U : Valuation τ sig (Elt Ideal)) (x : FVec Ideal S1x1000000 .f32) (k : IVec S_ 32)
    (hx : U (Proc.devRef .tc main_v28) = x) (hk : U (Proc.devRef .tc main_c_6) = k) :
    StableHlo.after hostOps2_1 U (Proc.devRef .tc main_v29) =
      pad S1x1048576 ![0, 0] ![0, 48576] ![0, 0] x (sitofp .f32 k) pads_S1x1000000_S1x1048576_000_0485760 h_S_ := by
  subst hx hk; after_results; rfl

theorem h22_v29 (U : Valuation τ sig (Elt Ideal)) : StableHlo.after hostOps2_2 U (Proc.devRef .tc main_v29) = U (Proc.devRef .tc main_v29) := by
  after_results
theorem h23_v29 (U : Valuation τ sig (Elt Ideal)) : StableHlo.after hostOps2_3 U (Proc.devRef .tc main_v29) = U (Proc.devRef .tc main_v29) := by
  after_results
theorem h24_v29 (U : Valuation τ sig (Elt Ideal)) : StableHlo.after hostOps2_4 U (Proc.devRef .tc main_v29) = U (Proc.devRef .tc main_v29) := by
  after_results

/-- The destination-degree vector laid as a row. -/
theorem h22_v30 (U : Valuation τ sig (Elt Ideal)) (d : FVec Ideal S1000000 .f32) (hd : U (Proc.devRef .tc main_v6) = d) :
    StableHlo.after hostOps2_2 U (Proc.devRef .tc main_v30) = shapeCast S1x1000000 d shapeCasts_S1000000_S1x1000000 := by
  subst hd; after_results; rfl

theorem h22_c7 (U : Valuation τ sig (Elt Ideal)) : StableHlo.after hostOps2_2 U (Proc.devRef .tc main_c_7) = constantI S_ 32 0#32 := by
  after_results

/-- The destination-degree row padded. -/
theorem h23_v31 (U : Valuation τ sig (Elt Ideal)) (x : FVec Ideal S1x1000000 .f32) (k : IVec S_ 32)
    (hx : U (Proc.devRef .tc main_v30) = x) (hk : U (Proc.devRef .tc main_c_7) = k) :
    StableHlo.after hostOps2_3 U (Proc.devRef .tc main_v31) =
      pad S1x1048576 ![0, 0] ![0, 48576] ![0, 0] x (sitofp .f32 k) pads_S1x1000000_S1x1048576_000_0485760 h_S_ := by
  subst hx hk; after_results; rfl

theorem h24_v31 (U : Valuation τ sig (Elt Ideal)) : StableHlo.after hostOps2_4 U (Proc.devRef .tc main_v31) = U (Proc.devRef .tc main_v31) := by
  after_results

/-- The bias as `[1, 1]`. -/
theorem h24_v32 (U : Valuation τ sig (Elt Ideal)) (x : FVec Ideal S1 .f32) (hx : U (Proc.devRef .tc main_arg5) = x) :
    StableHlo.after hostOps2_4 U (Proc.devRef .tc main_v32) = shapeCast S1x1 x shapeCasts_S1_S1x1 := by
  subst hx; after_results; rfl

/-- The result: the cut of the third launch's row. -/
theorem h3_v34 (U : Valuation τ sig (Elt Ideal)) (r : FVec Ideal S1x1048576 .f32) (hr : U (Proc.devRef .tc main_v33) = r) :
    StableHlo.after hostOps3 U (Proc.devRef .tc main_v34) = rowCut r := by
  subst hr; after_results; rfl

/-! ## Between the first and the second launch -/

/-- The source column reaches the second stretch as launched: the first launch has no window on it and no operation before writes it. -/
theorem W5_arg2 (c : Dev nD) : W5 m ρ c (Proc.devRef .tc main_arg2) = m ((c : Thread nD τ).loc main_arg2) := by
  rw [W5_of_ne m ρ c main_arg2 (by decide)]
  dsimp only [W4, W3, W2, W1]
  after_results

/-- The second stretch at any contents: the first launch's row cut to the nodes, gathered at the wrapped source column, re-laid. -/
theorem h1_v21 (U : Valuation τ sig (Elt Ideal)) (r : FVec Ideal S1x1048576 .f32) (x : IVec S32000000 32)
    (hr : U (Proc.devRef .tc main_v11) = r) (hx : U (Proc.devRef .tc main_arg2) = x) :
    StableHlo.after hostOps1 U (Proc.devRef .tc main_v21)
      = shapeCast S250000x128 (Host.gather gather_S1000000_S32000000x1_S32000000_n_0_n_n_0_1_1 (unrow r)
          (broadcastInDim S32000000x1 ![0] bcast_S32000000_S32000000x1_0 (wrapIdx x))) shapeCasts_S32000000_S250000x128 := by
  subst hr hx
  after_results
  rfl

theorem v21_entry (c : Dev nD) : V6 m ρ c main_v21 =
    shapeCast S250000x128 (Host.gather gather_S1000000_S32000000x1_S32000000_n_0_n_n_0_1_1 (unrow (W5 m ρ c (Proc.devRef .tc main_v11)))
      (broadcastInDim S32000000x1 ![0] bcast_S32000000_S32000000x1_0 (wrapIdx (m ((c : Thread nD τ).loc main_arg2)))))
      shapeCasts_S32000000_S250000x128 :=
  h1_v21 (W5 m ρ c) _ _ rfl (W5_arg2 m ρ c)

theorem v22_entry (c : Dev nD) : V6 m ρ c main_v22 =
    shapeCast S250000x128 (m ((c : Thread nD τ).loc main_arg1)) shapeCasts_S32000000_S250000x128 :=
  h1_v22 (W5 m ρ c) _ (arg1_mid m ρ c)

/-! ## Between the second and the third launch -/

theorem v29_entry (c : Dev nD) : V12 m ρ c main_v29 =
    rowPad (Host.scatterAdd scatter_S1000000_S32000000x1_S32000000_n_0_0_1
      (broadcastInDim S1000000 ![] bcast_S_S1000000 (constant S_ .f32 0x00000000#32))
      (broadcastInDim S32000000x1 ![0] bcast_S32000000_S32000000x1_0 (m ((c : Thread nD τ).loc main_arg3)))
      (shapeCast S32000000 (W7 m ρ c (Proc.devRef .tc main_v23)) shapeCasts_S250000x128_S32000000)) := by
  unfold rowPad
  exact (h24_v29 (W11 m ρ c)).trans ((h23_v29 (W10 m ρ c)).trans ((h22_v29 (W9 m ρ c)).trans
    (h21_v29 (W8 m ρ c) _ _ (h2_v28 (W7 m ρ c) _ _ (arg3_late m ρ c) rfl) (h2_c6 (W7 m ρ c)))))

theorem v31_entry (c : Dev nD) : V12 m ρ c main_v31 = rowPad (deg (m ((c : Thread nD τ).loc main_arg3))) := by
  unfold rowPad
  exact (h24_v31 (W11 m ρ c)).trans (h23_v31 (W10 m ρ c) _ _ (h22_v30 (W9 m ρ c) _ (v6_late m ρ c)) (h22_c7 (W9 m ρ c)))

theorem v32_entry (c : Dev nD) : V12 m ρ c main_v32 = shapeCast S1x1 (m ((c : Thread nD τ).loc main_arg5)) shapeCasts_S1_S1x1 :=
  h24_v32 (W11 m ρ c) _ (arg5_late m ρ c)

/-! ## After the third launch -/

theorem v34_exit (c : Dev nD) : W14 m ρ c (Proc.devRef .tc main_v34) = rowCut (W13 m ρ c (Proc.devRef .tc main_v33)) :=
  h3_v34 (W13 m ρ c) _ rfl

end Cert.KernelIdeal.HostChain

end
-- ==== Proof.Region0.lean ====
/-
  The first launch over its whole arrays. Grid point `t` reads columns `65536·t … 65536·t + 65535` of the padded transposed
  positions `P : [2, 1048576]` and of the padded source-degree row `D : [1, 1048576]`, the whole weight column `Wt : [2, 1]`, and
  writes the same columns of the feature row. Column by column the body computes
  `(P[0,q]·Wt[0,0] + P[1,q]·Wt[1,0]) · rsqrt(max(D[0,q], 1))`, so after the sixteen points the output array is that function of the
  three input arrays at every column.
-/
import proofs.«174512_j52106543235761_1_alg».proof.Proof.Gen.KernelIdeal.Frame
import proofs.«174512_j52106543235761_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Column `q` of the feature row, from the three input arrays. -/
def nodeProjAt (P : FVec Ideal S2x1048576 .f32) (D : FVec Ideal S1x1048576 .f32) (Wt : FVec Ideal S2x1 .f32) (q : Fin 1048576) : EReal :=
  (P (ix2 (0 : Fin 2) q) * Wt (ix2 (0 : Fin 2) (0 : Fin 1)) + P (ix2 (1 : Fin 2) q) * Wt (ix2 (1 : Fin 2) (0 : Fin 1)))
    * Ideal.rsqrt (max (D (ix2 (0 : Fin 1) q)) one32)

/-- The feature row as one function of the three input arrays. -/
def nodeProj (P : FVec Ideal S2x1048576 .f32) (D : FVec Ideal S1x1048576 .f32) (Wt : FVec Ideal S2x1 .f32) : FVec Ideal S1x1048576 .f32 :=
  fun i => nodeProjAt P D Wt ⟨(i 1).val, (i 1).isLt⟩

theorem nodeProj_apply (P : FVec Ideal S2x1048576 .f32) (D : FVec Ideal S1x1048576 .f32) (Wt : FVec Ideal S2x1 .f32) (q : Fin 1048576) :
    nodeProj P D Wt (ix2 (0 : Fin 1) q) = nodeProjAt P D Wt q := rfl

/-- The zero offsets of a rank-two block, as the constant function. -/
theorem zeroOffsets : (![0, 0] : Fin 2 → Nat) = fun _ => 0 := funext fun a => by fin_cases a <;> rfl

/-- Row 0 of the position block at column `b`, through the body's first row slice. -/
theorem row0_apply (x0 : Vec Ideal S2x65536 .f32) (b : Fin 65536) :
    extractStridedSlice S1x65536 ![0, 0] x0 slices_S2x65536_o0_0_S1x65536 (ix2 (0 : Fin 1) b) = x0 (ix2 (0 : Fin 2) b) :=
  extractStridedSlice_apply _ x0 _ _ _ fun a => match a with
    | ⟨0, _⟩ => rfl
    | ⟨1, _⟩ => (Nat.zero_add _).symm

/-- Row 1 of the position block at column `b`, through the body's second row slice. -/
theorem row1_apply (x0 : Vec Ideal S2x65536 .f32) (b : Fin 65536) :
    extractStridedSlice S1x65536 ![1, 0] x0 slices_S2x65536_o1_0_S1x65536 (ix2 (0 : Fin 1) b) = x0 (ix2 (1 : Fin 2) b) :=
  extractStridedSlice_apply _ x0 _ _ _ fun a => match a with
    | ⟨0, _⟩ => rfl
    | ⟨1, _⟩ => (Nat.zero_add _).symm

/-- The two weights the body extracts from the weight column: the first, -/
theorem weight0_eq (x2 : Vec Ideal S2x1 .f32) :
    extractAt ![0, 0] (extractStridedSlice S1x1 ![0, 0] x2 slices_S2x1_o0_0_S1x1) inpos_S1x1_p0_0 = x2 (ix2 (0 : Fin 2) (0 : Fin 1)) :=
  extractStridedSlice_apply _ x2 _ _ _ fun a => match a with
    | ⟨0, _⟩ => rfl
    | ⟨1, _⟩ => rfl

/-- The second of them. -/
theorem weight1_eq (x2 : Vec Ideal S2x1 .f32) :
    extractAt ![0, 0] (extractStridedSlice S1x1 ![1, 0] x2 slices_S2x1_o1_0_S1x1) inpos_S1x1_p0_0 = x2 (ix2 (1 : Fin 2) (0 : Fin 1)) :=
  extractStridedSlice_apply _ x2 _ _ _ fun a => match a with
    | ⟨0, _⟩ => rfl
    | ⟨1, _⟩ => rfl

/-- The body's arithmetic at column `b` of its blocks. -/
theorem payload_apply (x1 : Vec Ideal S1x65536 .f32) (x0 : Vec Ideal S2x65536 .f32) (x2 : Vec Ideal S2x1 .f32) (b : Fin 65536) :
    k0_pay1 x1 x0 x2 (ix2 (0 : Fin 1) b)
      = (x0 (ix2 (0 : Fin 2) b) * x2 (ix2 (0 : Fin 2) (0 : Fin 1)) + x0 (ix2 (1 : Fin 2) b) * x2 (ix2 (1 : Fin 2) (0 : Fin 1)))
        * Ideal.rsqrt (max (x1 (ix2 (0 : Fin 1) b)) one32) := by
  unfold k0_pay1
  simp only [shapeCast_self]
  show (extractStridedSlice S1x65536 ![0, 0] x0 slices_S2x65536_o0_0_S1x65536 (ix2 (0 : Fin 1) b)
        * extractAt ![0, 0] (extractStridedSlice S1x1 ![0, 0] x2 slices_S2x1_o0_0_S1x1) inpos_S1x1_p0_0
      + extractStridedSlice S1x65536 ![1, 0] x0 slices_S2x65536_o1_0_S1x65536 (ix2 (0 : Fin 1) b)
        * extractAt ![0, 0] (extractStridedSlice S1x1 ![1, 0] x2 slices_S2x1_o1_0_S1x1) inpos_S1x1_p0_0)
      * Ideal.rsqrt (max (x1 (ix2 (0 : Fin 1) b)) one32) = _
  rw [row0_apply, row1_apply, weight0_eq, weight1_eq]

/-- One block of the launch against the whole arrays: when the position block `x0` and the degree block `x1` are columns
    `k·65536 …` of `P` and `D` and the weight block is `Wt`, the body's value at column `j` of the block is the
    feature at column `k·65536 + j` of the row. -/
theorem block_eq (P : FVec Ideal S2x1048576 .f32) (D : FVec Ideal S1x1048576 .f32) (Wt : FVec Ideal S2x1 .f32)
    (x0 : Vec Ideal S2x65536 .f32) (x1 : Vec Ideal S1x65536 .f32) (x2 : Vec Ideal S2x1 .f32) (k : Nat)
    (h0 : ∀ (r : Fin 2) (b : Fin 65536) (q : Fin 1048576), q.val = k * 65536 + b.val → x0 (ix2 r b) = P (ix2 r q))
    (h1 : ∀ (b : Fin 65536) (q : Fin 1048576), q.val = k * 65536 + b.val → x1 (ix2 (0 : Fin 1) b) = D (ix2 (0 : Fin 1) q))
    (h2 : ∀ r : Fin 2, x2 (ix2 r (0 : Fin 1)) = Wt (ix2 r (0 : Fin 1)))
    (j : S1x65536.Idx) (i : S1x1048576.Idx) (hi : (i 1).val = k * 65536 + (j 1).val) :
    k0_pay1 x1 x0 x2 j = nodeProj P D Wt i := by
  obtain ⟨b, rfl⟩ : ∃ b : Fin 65536, j = ix2 (0 : Fin 1) b :=
    ⟨⟨(j 1).val, (j 1).isLt⟩, funext fun d => match d with
      | ⟨0, _⟩ => Fin.ext (by have h : (j 0).val < 1 := (j 0).isLt; show (j 0).val = 0; omega)
      | ⟨1, _⟩ => rfl⟩
  have hq : (⟨(i 1).val, (i 1).isLt⟩ : Fin 1048576).val = k * 65536 + b.val := hi
  rw [payload_apply, h0 0 b _ hq, h0 1 b _ hq, h1 b _ hq, h2 0, h2 1]
  rfl

/-- The printed index maps over the sixteen points: the weight window stays at block (0, 0); the three others sit at
    block (0, t). -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The position block of point `t` is columns `t·65536 …` of the position array. -/
theorem posBlock_apply (c : Dev nD) (t : Fin cfg0.N) (r : Fin 2) (b : Fin 65536) (q : Fin 1048576)
    (hq : q.val = t.val * 65536 + b.val) :
    (iblk0 V c 0 t : Vec Ideal S2x65536 .f32) (ix2 r b) = (V c main_v8 : S2x1048576.Idx → EReal) (ix2 r q) := by
  obtain ⟨e0, e1, -⟩ := index_facts t
  unfold iblk0
  rw [View.read_apply]
  show V c main_v8 _ = V c main_v8 _
  congr 1
  funext a
  apply Fin.ext
  match a with
  | ⟨0, _⟩ => show win0_0.index t (0 : Fin 2) * 2 + 1 * r.val = r.val; omega
  | ⟨1, _⟩ => show win0_0.index t (1 : Fin 2) * 65536 + 1 * b.val = q.val; omega

/-- The degree block of point `t` is columns `t·65536 …` of the degree row. -/
theorem degBlock_apply (c : Dev nD) (t : Fin cfg0.N) (b : Fin 65536) (q : Fin 1048576)
    (hq : q.val = t.val * 65536 + b.val) :
    (iblk0 V c 1 t : Vec Ideal S1x65536 .f32) (ix2 (0 : Fin 1) b) = (V c main_v10 : S1x1048576.Idx → EReal) (ix2 (0 : Fin 1) q) := by
  obtain ⟨-, -, e0, e1, -⟩ := index_facts t
  unfold iblk0
  rw [View.read_apply]
  show V c main_v10 _ = V c main_v10 _
  congr 1
  funext a
  apply Fin.ext
  match a with
  | ⟨0, _⟩ => show win0_1.index t (0 : Fin 2) * 1 + 1 * 0 = 0; omega
  | ⟨1, _⟩ => show win0_1.index t (1 : Fin 2) * 65536 + 1 * b.val = q.val; omega

/-- The weight block of every point is the whole weight column. -/
theorem weightBlock_apply (c : Dev nD) (t : Fin cfg0.N) (r : Fin 2) :
    (iblk0 V c 2 t : Vec Ideal S2x1 .f32) (ix2 r (0 : Fin 1)) = (V c main_arg4 : S2x1.Idx → EReal) (ix2 r (0 : Fin 1)) := by
  obtain ⟨-, -, -, -, e0, e1, -⟩ := index_facts t
  unfold iblk0
  rw [View.read_apply]
  show V c main_arg4 _ = V c main_arg4 _
  congr 1
  funext a
  apply Fin.ext
  match a with
  | ⟨0, _⟩ => show win0_2.index t (0 : Fin 2) * 2 + 1 * r.val = r.val; omega
  | ⟨1, _⟩ => show win0_2.index t (1 : Fin 2) * 1 + 1 * 0 = 0; omega

/-- What point `t` writes back is its block of the feature row of the whole input arrays. -/
theorem flushed_eq (c : Dev nD) (t : Fin cfg0.N) :
    (dat0 (F := Ideal) V c).flushed 3 t
      = ((cfg0.win 3).blk t).view.read (Elt Ideal) (nodeProj (V c main_v8) (V c main_v10) (V c main_arg4)) := by
  show (cfg0.win 3).cut (grid0.coords t) ((dat0 V c).after 3 t) = _
  rw [after0_3]
  unfold out0_3
  rw [View.canon_unit_zero zeroOffsets]
  simp only [View.ld_unit_zero (S := S1x65536) zeroOffsets, View.ld_unit_zero (S := S2x65536) zeroOffsets, View.ld_unit_zero (S := S2x1) zeroOffsets]
  obtain ⟨-, -, -, -, -, -, e0, e1⟩ := index_facts t
  funext j
  refine block_eq (V c main_v8) (V c main_v10) (V c main_arg4) (iblk0 V c 0 t) (iblk0 V c 1 t) (iblk0 V c 2 t) t.val
    (fun r b q hq => posBlock_apply V c t r b q hq) (fun b q hq => degBlock_apply V c t b q hq)
    (fun r => weightBlock_apply V c t r) j (((cfg0.win 3).blk t).view.emb j) ?_
  show win0_3.index t (1 : Fin 2) * 65536 + 1 * (j 1).val = t.val * 65536 + (j 1).val
  omega

/-- An index of the feature row is in point `t`'s block iff each coordinate is in the block's range on its axis. -/
theorem mem_blk (t : Fin cfg0.N) (i : S1x1048576.Idx) :
    i ∈ ((cfg0.win 3).blk t).view.set
      ↔ ∀ a : Fin 2, win0_3.index t a * S1x65536.size a ≤ (i a).val ∧ (i a).val < win0_3.index t a * S1x65536.size a + S1x65536.size a := by
  show i ∈ ((View.whole main_v11).slice (win0_3.rect t)).set ↔ _
  rw [View.set_slice_whole, Rect.mem_set_unit]
  exact Iff.rfl

/-- Every column of the feature row is written by the point `column / 65536`. -/
theorem cover (i : S1x1048576.Idx) :
    ∃ t : Fin cfg0.N, (cfg0.win 3).flush t = true ∧ i ∈ ((cfg0.win 3).blk t).view.set := by
  have h0 : (i 0).val < 1 := (i 0).isLt
  have h1 : (i 1).val < 1048576 := (i 1).isLt
  have hN : cfg0.N = 16 := N_0
  have ht : (i 1).val / 65536 < cfg0.N := by rw [hN]; omega
  obtain ⟨-, -, -, -, -, -, e0, e1⟩ := index_facts ⟨(i 1).val / 65536, ht⟩
  refine ⟨⟨(i 1).val / 65536, ht⟩, flush0_3 _, ?_⟩
  rw [mem_blk]
  intro a
  match a with
  | ⟨0, _⟩ =>
    show win0_3.index ⟨(i 1).val / 65536, ht⟩ (0 : Fin 2) * 1 ≤ (i 0).val
      ∧ (i 0).val < win0_3.index ⟨(i 1).val / 65536, ht⟩ (0 : Fin 2) * 1 + 1
    omega
  | ⟨1, _⟩ =>
    show win0_3.index ⟨(i 1).val / 65536, ht⟩ (1 : Fin 2) * 65536 ≤ (i 1).val
      ∧ (i 1).val < win0_3.index ⟨(i 1).val / 65536, ht⟩ (1 : Fin 2) * 65536 + 65536
    have e1' : win0_3.index ⟨(i 1).val / 65536, ht⟩ (1 : Fin 2) = (i 1).val / 65536 := e1
    omega

/-- After the sixteen grid points the output array of the first launch is `nodeProj` of its three input arrays as the launch found them. -/
theorem array_eq (c : Dev nD) :
    (dat0 (F := Ideal) V c).arrAt 3 cfg0.N = nodeProj (V c main_v8) (V c main_v10) (V c main_arg4) := by
  exact (dat0 (F := Ideal) V c).arrAt_eq_of_cover 3 (nodeProj (V c main_v8) (V c main_v10) (V c main_arg4))
    (fun t _ => flushed_eq V c t) cover

end Cert.KernelIdeal.Region0

end
-- ==== Proof.Region1.lean ====
/-
  The second launch over its whole arrays. Grid point `t` reads rows `10000·t … 10000·t + 9999` of the gathered features
  `A : [250000, 128]` and of the edge weights `B : [250000, 128]` and writes the same rows of the messages: the elementwise product.
  After the twenty-five points the output array is `A · B` at every index.
-/
import proofs.«174512_j52106543235761_1_alg».proof.Proof.Gen.KernelIdeal.Frame
import proofs.«174512_j52106543235761_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The messages as one function of the two input arrays: the elementwise product. -/
def edgeMul (A B : FVec Ideal S250000x128 .f32) : FVec Ideal S250000x128 .f32 := mulf A B

theorem edgeMul_apply (A B : FVec Ideal S250000x128 .f32) (i : S250000x128.Idx) : edgeMul A B i = A i * B i := rfl

/-- The zero offsets of a whole-block access, as the constant function. -/
theorem zero_offsets : (![0, 0] : Fin 2 → Nat) = fun _ => 0 :=
  funext fun a => match a with
    | ⟨0, _⟩ => rfl
    | ⟨1, _⟩ => rfl

/-- The body's value on two loaded blocks is their elementwise product (the two reshapes are identities). -/
theorem blockMul (x0 x1 : Vec Ideal S10000x128 .f32) : k1_pay1 x0 x1 = mulf x0 x1 := by
  unfold k1_pay1
  simp only [shapeCast_self]

/-- Where the three windows sit at grid point `t`: block row `t`, block column `0`, each of them. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The product of two entries read at one and the same index is the product array's entry there. -/
theorem mul_at (A B : FVec Ideal S250000x128 .f32) {i0 i1 i2 : S250000x128.Idx} (h0 : i0 = i2) (h1 : i1 = i2) :
    A i0 * B i1 = edgeMul A B i2 := by
  subst h0 h1; rfl

/-- What grid point `t` writes back is block `t` of the elementwise product of the two whole input arrays. -/
theorem flushed_eq (c : Dev nD) (t : Fin cfg1.N) :
    (dat1 (F := Ideal) V c).flushed 2 t
      = ((cfg1.win 2).blk t).view.read (Elt Ideal) (edgeMul (V c main_v21) (V c main_v22)) := by
  show (cfg1.win 2).cut (grid1.coords t) ((dat1 V c).after 2 t) = _
  rw [after1_2]
  unfold out1_2
  rw [View.canon_unit_zero zero_offsets]
  simp only [View.ld_unit_zero (S := S10000x128) zero_offsets]
  rw [blockMul]
  obtain ⟨e00, e01, e10, e11, e20, e21⟩ := block_index t
  funext j
  have h0 : ((cfg1.win 0).blk t).view.emb j = ((cfg1.win 2).blk t).view.emb j := by
    funext a; apply Fin.ext
    match a with
    | ⟨0, _⟩ =>
      show win1_0.index t (0 : Fin 2) * 10000 + 1 * (j 0).val = win1_2.index t (0 : Fin 2) * 10000 + 1 * (j 0).val
      rw [e00, e20]
    | ⟨1, _⟩ =>
      show win1_0.index t (1 : Fin 2) * 128 + 1 * (j 1).val = win1_2.index t (1 : Fin 2) * 128 + 1 * (j 1).val
      rw [e01, e21]
  have h1 : ((cfg1.win 1).blk t).view.emb j = ((cfg1.win 2).blk t).view.emb j := by
    funext a; apply Fin.ext
    match a with
    | ⟨0, _⟩ =>
      show win1_1.index t (0 : Fin 2) * 10000 + 1 * (j 0).val = win1_2.index t (0 : Fin 2) * 10000 + 1 * (j 0).val
      rw [e10, e20]
    | ⟨1, _⟩ =>
      show win1_1.index t (1 : Fin 2) * 128 + 1 * (j 1).val = win1_2.index t (1 : Fin 2) * 128 + 1 * (j 1).val
      rw [e11, e21]
  exact mul_at (V c main_v21) (V c main_v22) h0 h1

/-- An index of the output array lies in point `t`'s block iff each coordinate lies in the block's range on its axis. -/
theorem mem_block (t : Fin cfg1.N) (i : S250000x128.Idx) :
    i ∈ ((cfg1.win 2).blk t).view.set
      ↔ ∀ a : Fin 2, win1_2.index t a * S10000x128.size a ≤ (i a).val
          ∧ (i a).val < win1_2.index t a * S10000x128.size a + S10000x128.size a := by
  show i ∈ ((View.whole main_v23).slice (win1_2.rect t)).set ↔ _
  rw [View.set_slice_whole, Rect.mem_set_unit]
  exact Iff.rfl

/-- Row `r` of the output array lies in the block of grid point `r / 10000`: the twenty-five blocks tile the array. -/
theorem covered (i : S250000x128.Idx) :
    ∃ t : Fin cfg1.N, (cfg1.win 2).flush t = true ∧ i ∈ ((cfg1.win 2).blk t).view.set := by
  have hi0 : (i 0).val < 250000 := (i 0).isLt
  have hi1 : (i 1).val < 128 := (i 1).isLt
  have ht : (i 0).val / 10000 < 25 := by omega
  obtain ⟨-, -, -, -, e20, e21⟩ := block_index ⟨(i 0).val / 10000, ht⟩
  refine ⟨⟨(i 0).val / 10000, ht⟩, flush1_2 _, ?_⟩
  rw [mem_block]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e20]
    show (i 0).val / 10000 * 10000 ≤ (i 0).val ∧ (i 0).val < (i 0).val / 10000 * 10000 + 10000
    omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    rw [e21]
    omega

/-- After the twenty-five grid points the output array of the second launch is the elementwise product of its two input arrays. -/
theorem array_eq (c : Dev nD) :
    (dat1 (F := Ideal) V c).arrAt 2 cfg1.N = edgeMul (V c main_v21) (V c main_v22) :=
  (dat1 (F := Ideal) V c).arrAt_eq_of_cover 2 (edgeMul (V c main_v21) (V c main_v22))
    (fun t _ => flushed_eq V c t) covered

end Cert.KernelIdeal.Region1

end
-- ==== Proof.Region2.lean ====
/-
  The third launch over its whole arrays. Grid point `t` reads columns `65536·t … 65536·t + 65535` of the padded aggregate row
  `A : [1, 1048576]` and of the padded destination-degree row `D : [1, 1048576]`, the bias `B : [1, 1]`, and writes the same columns
  of the result row: `A[0,q] · rsqrt(max(D[0,q], 1)) + B[0,0]`.
-/
import proofs.«174512_j52106543235761_1_alg».proof.Proof.Gen.KernelIdeal.Frame
import proofs.«174512_j52106543235761_1_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Column `q` of the result row, from the three input arrays. -/
def finalizeAt (A : FVec Ideal S1x1048576 .f32) (D : FVec Ideal S1x1048576 .f32) (B : FVec Ideal S1x1 .f32) (q : Fin 1048576) : EReal :=
  A (ix2 (0 : Fin 1) q) * Ideal.rsqrt (max (D (ix2 (0 : Fin 1) q)) one32) + B (ix2 (0 : Fin 1) (0 : Fin 1))

/-- The result row as one function of the three input arrays. -/
def finalize (A : FVec Ideal S1x1048576 .f32) (D : FVec Ideal S1x1048576 .f32) (B : FVec Ideal S1x1 .f32) : FVec Ideal S1x1048576 .f32 :=
  fun i => finalizeAt A D B ⟨(i 1).val, (i 1).isLt⟩

theorem finalize_apply (A : FVec Ideal S1x1048576 .f32) (D : FVec Ideal S1x1048576 .f32) (B : FVec Ideal S1x1 .f32) (q : Fin 1048576) :
    finalize A D B (ix2 (0 : Fin 1) q) = finalizeAt A D B q := rfl

/-- The origin of a rank-two buffer, written two ways. -/
theorem origin_eq : (![0, 0] : Fin 2 → Nat) = fun _ => 0 := funext fun a => by
  match a with
  | ⟨0, _⟩ => rfl
  | ⟨1, _⟩ => rfl

/-- The body's arithmetic at one index of a block: the aggregate times `rsqrt(max(degree, 1))`, plus the bias. Here `d` is the
    degree block, `b` the bias and `a` the aggregate block. -/
theorem body_at (d : Vec Ideal S1x65536 .f32) (b : Vec Ideal S1x1 .f32) (a : Vec Ideal S1x65536 .f32) (j : S1x65536.Idx) :
    k2_pay1 d b a j = a j * Ideal.rsqrt (max (d j) one32) + b (ix2 (0 : Fin 1) (0 : Fin 1)) := by
  unfold k2_pay1
  simp only [shapeCast_self]
  have hb : extractAt ![0, 0] b inpos_S1x1_p0_0 = b (ix2 (0 : Fin 1) (0 : Fin 1)) := by
    unfold extractAt
    congr 1
    funext a
    match a with
    | ⟨0, _⟩ => rfl
    | ⟨1, _⟩ => rfl
  rw [hb]
  rfl

/-- The block indices of the four windows at grid point `t`: the two padded rows and the result row sit at block `t` of the
    column axis, the bias always at its only block. -/
theorem block_index : ∀ t : Fin cfg2.N,
    win2_0.index t (0 : Fin 2) = 0 ∧ win2_0.index t (1 : Fin 2) = win2_3.index t (1 : Fin 2)
    ∧ win2_1.index t (0 : Fin 2) = 0 ∧ win2_1.index t (1 : Fin 2) = win2_3.index t (1 : Fin 2)
    ∧ win2_2.index t (0 : Fin 2) = 0 ∧ win2_2.index t (1 : Fin 2) = 0
    ∧ win2_3.index t (0 : Fin 2) = 0 ∧ win2_3.index t (1 : Fin 2) = t.val :=
  (by decide +kernel : ∀ t : Fin grid2.N, _)

/-- The result row at any index of its shape: the row coordinate of a `[1, n]` index is zero, so the index is its column. -/
theorem finalize_at (A : FVec Ideal S1x1048576 .f32) (D : FVec Ideal S1x1048576 .f32) (B : FVec Ideal S1x1 .f32) (i : S1x1048576.Idx) :
    finalize A D B i = A i * Ideal.rsqrt (max (D i) one32) + B (ix2 (0 : Fin 1) (0 : Fin 1)) := by
  have hi : i = ix2 (0 : Fin 1) (⟨(i 1).val, (i 1).isLt⟩ : Fin 1048576) := by
    funext a
    match a with
    | ⟨0, _⟩ => exact Fin.ext (Nat.lt_one_iff.mp (show (i 0).val < 1 from (i 0).isLt))
    | ⟨1, _⟩ => rfl
  rw [hi]
  rfl

/-- What grid point `t` writes to the result row is block `t` of `finalize` of the three input arrays: the aggregate and degree
    blocks are read at the very columns the result block occupies, and the bias block is the whole bias. -/
theorem point_writes (c : Dev nD) (t : Fin cfg2.N) :
    (dat2 (F := Ideal) V c).flushed 3 t
      = ((cfg2.win 3).blk t).view.read (Elt Ideal) (finalize (V c main_v29) (V c main_v31) (V c main_v32)) := by
  show (cfg2.win 3).cut (grid2.coords t) ((dat2 V c).after 3 t) = _
  rw [after2_3]
  unfold out2_3
  rw [View.canon_unit_zero origin_eq]
  simp only [View.ld_unit_zero (S := S1x65536) origin_eq, View.ld_unit_zero (S := S1x1) origin_eq]
  funext j
  show k2_pay1 (iblk2 V c 1 t) (iblk2 V c 2 t) (iblk2 V c 0 t) j
      = finalize (V c main_v29) (V c main_v31) (V c main_v32) (((cfg2.win 3).blk t).view.emb j)
  refine (body_at _ _ _ j).trans ?_
  rw [finalize_at]
  obtain ⟨e00, e01, e10, e11, e20, e21, e30, e31⟩ := block_index t
  -- a block's coordinate on an axis is its block index times the block extent plus the coordinate inside the block
  have h0 : ((cfg2.win 0).blk t).view.emb j = ((cfg2.win 3).blk t).view.emb j := by
    funext a; apply Fin.ext
    match a with
    | ⟨0, _⟩ => show win2_0.index t (0 : Fin 2) * 1 + 1 * (j 0).val = win2_3.index t (0 : Fin 2) * 1 + 1 * (j 0).val; omega
    | ⟨1, _⟩ => show win2_0.index t (1 : Fin 2) * 65536 + 1 * (j 1).val = win2_3.index t (1 : Fin 2) * 65536 + 1 * (j 1).val; omega
  have h1 : ((cfg2.win 1).blk t).view.emb j = ((cfg2.win 3).blk t).view.emb j := by
    funext a; apply Fin.ext
    match a with
    | ⟨0, _⟩ => show win2_1.index t (0 : Fin 2) * 1 + 1 * (j 0).val = win2_3.index t (0 : Fin 2) * 1 + 1 * (j 0).val; omega
    | ⟨1, _⟩ => show win2_1.index t (1 : Fin 2) * 65536 + 1 * (j 1).val = win2_3.index t (1 : Fin 2) * 65536 + 1 * (j 1).val; omega
  have h2 : ((cfg2.win 2).blk t).view.emb (ix2 (0 : Fin 1) (0 : Fin 1)) = ix2 (0 : Fin 1) (0 : Fin 1) := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  have r0 : iblk2 V c 0 t j = V c main_v29 (((cfg2.win 3).blk t).view.emb j) := by
    show V c main_v29 (((cfg2.win 0).blk t).view.emb j) = _
    rw [h0]
  have r1 : iblk2 V c 1 t j = V c main_v31 (((cfg2.win 3).blk t).view.emb j) := by
    show V c main_v31 (((cfg2.win 1).blk t).view.emb j) = _
    rw [h1]
  have r2 : iblk2 V c 2 t (ix2 (0 : Fin 1) (0 : Fin 1)) = V c main_v32 (ix2 (0 : Fin 1) (0 : Fin 1)) := by
    show V c main_v32 (((cfg2.win 2).blk t).view.emb (ix2 (0 : Fin 1) (0 : Fin 1))) = _
    rw [h2]
  rw [r0, r1, r2]

/-- An index of the result row lies in the block of grid point `t` iff each coordinate lies in the block's range on its axis. -/
theorem mem_block (t : Fin cfg2.N) (i : S1x1048576.Idx) :
    i ∈ ((cfg2.win 3).blk t).view.set
      ↔ ∀ a : Fin 2, win2_3.index t a * S1x65536.size a ≤ (i a).val ∧ (i a).val < win2_3.index t a * S1x65536.size a + S1x65536.size a := by
  show i ∈ ((View.whole main_v33).slice (win2_3.rect t)).set ↔ _
  rw [View.set_slice_whole, Rect.mem_set_unit]
  exact Iff.rfl

/-- Every column `q` of the result row lies in the block of grid point `q / 65536`: the sixteen blocks tile the row. -/
theorem blocks_cover (i : S1x1048576.Idx) :
    ∃ t : Fin cfg2.N, (cfg2.win 3).flush t = true ∧ i ∈ ((cfg2.win 3).blk t).view.set := by
  have hi0 : (i 0).val < 1 := (i 0).isLt
  have hi1 : (i 1).val < 1048576 := (i 1).isLt
  have hq : (i 1).val / 65536 < 16 := by omega
  obtain ⟨t, ht⟩ : ∃ t : Fin cfg2.N, t.val = (i 1).val / 65536 := ⟨⟨(i 1).val / 65536, hq⟩, rfl⟩
  refine ⟨t, flush2_3 t, ?_⟩
  rw [mem_block]
  obtain ⟨-, -, -, -, -, -, e30, e31⟩ := block_index t
  intro a
  match a with
  | ⟨0, _⟩ =>
    show win2_3.index t (0 : Fin 2) * 1 ≤ (i 0).val ∧ (i 0).val < win2_3.index t (0 : Fin 2) * 1 + 1
    omega
  | ⟨1, _⟩ =>
    show win2_3.index t (1 : Fin 2) * 65536 ≤ (i 1).val ∧ (i 1).val < win2_3.index t (1 : Fin 2) * 65536 + 65536
    omega

/-- After the sixteen grid points the output array of the third launch is `finalize` of its three input arrays as the launch found them. -/
theorem array_eq (c : Dev nD) :
    (dat2 (F := Ideal) V c).arrAt 3 cfg2.N = finalize (V c main_v29) (V c main_v31) (V c main_v32) :=
  (dat2 (F := Ideal) V c).arrAt_eq_of_cover 3 (finalize (V c main_v29) (V c main_v31) (V c main_v32))
    (fun t _ => point_writes V c t) blocks_cover

end Cert.KernelIdeal.Region2

end
-- ==== Proof.KernelValue.lean ====
/-
  The kernel program's result as the common specification.

  Chaining the three launches' whole-array functions through the host operations between them gives the result buffer as one closed
  term of the six arguments. Read at column `q` of the result row: the cut and the pads cancel (column `q < 1000000` of a padded row is
  entry `q` of the node vector); the first launch's row restricted to the nodes is the kernel's feature vector; the re-laying of the
  edge vectors to `[250000, 128]` and back cancels around the elementwise product; what is left is the specification's `outAt`.
-/
import proofs.«174512_j52106543235761_1_alg».proof.Proof.Gen.KernelIdeal.Frame
import proofs.«174512_j52106543235761_1_alg».proof.Proof.Spec
import proofs.«174512_j52106543235761_1_alg».proof.Proof.HostChain
import proofs.«174512_j52106543235761_1_alg».proof.Proof.Region0
import proofs.«174512_j52106543235761_1_alg».proof.Proof.Region1
import proofs.«174512_j52106543235761_1_alg».proof.Proof.Region2
import Idealize.ShloMosaic.Lib.Pipeline.Value
import Idealize.ShloMosaic.Lib.KernelVsHost
import Idealize.ShloMosaic.Lib.ValueIdx

set_option maxRecDepth 16384

noncomputable section

namespace Cert.KernelIdeal.KernelValue

open Cert.KernelIdeal Cert.KernelIdeal.Gen Cert.KernelIdeal.Spec Cert.KernelIdeal.HostChain
open Idealize.ShloMosaic Idealize.ShloMosaic.TcCoe Idealize.SL.Sem Idealize.ShloMosaic.ValueIdx

/-! ## Pads, cuts and re-layings at an index -/

/-- Column `q < 1000000` of row `k` of the padded transposed positions is coordinate `k` of node `q`'s position. -/
theorem posPad_apply (x0 : FVec Ideal S1000000x2 .f32) (k : Fin 2) (p : Fin 1000000) :
    posPad x0 (ix2 k (⟨p.val, by omega⟩ : Fin 1048576)) = x0 (ix2 p k) := by
  unfold posPad
  refine (pad_apply_of_inside _ _ _ _ _ pads_S2x1000000_S2x1048576_000_0485760 h_S_ _ (ix2 k p) (fun a => ?_)).trans ?_
  · match a with
    | ⟨0, _⟩ => show k.val = 0 + k.val * (0 + 1); omega
    | ⟨1, _⟩ => show p.val = 0 + p.val * (0 + 1); omega
  · exact transpose_apply _ x0 transposes_S1000000x2_S2x1000000_1_0 (ix2 k p) (ix2 p k) (fun b => by
      match b with
      | ⟨0, _⟩ => rfl
      | ⟨1, _⟩ => rfl)

/-- Column `q < 1000000` of a padded row is entry `q` of the node vector. -/
theorem rowPad_apply (d : FVec Ideal S1000000 .f32) (p : Fin 1000000) :
    rowPad d (ix2 (0 : Fin 1) (⟨p.val, by omega⟩ : Fin 1048576)) = d (ix1 p) := by
  unfold rowPad
  refine (pad_apply_of_inside _ _ _ _ _ pads_S1x1000000_S1x1048576_000_0485760 h_S_ _ (ix2 (0 : Fin 1) p) (fun a => ?_)).trans ?_
  · match a with
    | ⟨0, _⟩ => show 0 = 0 + 0 * (0 + 1); omega
    | ⟨1, _⟩ => show p.val = 0 + p.val * (0 + 1); omega
  · exact shapeCast_apply d shapeCasts_S1000000_S1x1000000 (ix2 (0 : Fin 1) p) (ix1 p) (by
      rw [Shape.rowMajor_val_one, Shape.rowMajor_val_two]
      show p.val = 0 * 1000000 + p.val
      omega)

/-- Column `q` of the cut row is column `q` of the padded row. -/
theorem rowCut_apply (r : FVec Ideal S1x1048576 .f32) (p : Fin 1000000) :
    rowCut r (ix2 (0 : Fin 1) p) = r (ix2 (0 : Fin 1) (⟨p.val, by omega⟩ : Fin 1048576)) := by
  unfold rowCut
  exact extractStridedSlice_apply _ r slices_S1x1048576_S1x1000000_0_0 (ix2 (0 : Fin 1) p) (ix2 (0 : Fin 1) (⟨p.val, by omega⟩ : Fin 1048576))
    (fun a => by
      match a with
      | ⟨0, _⟩ => show 0 = 0 + 0; omega
      | ⟨1, _⟩ => show p.val = 0 + p.val; omega)

/-- Entry `q` of the node vector cut out of a padded row is column `q` of the row. -/
theorem unrow_apply (r : FVec Ideal S1x1048576 .f32) (p : Fin 1000000) :
    unrow r (ix1 p) = r (ix2 (0 : Fin 1) (⟨p.val, by omega⟩ : Fin 1048576)) := by
  unfold unrow
  refine (shapeCast_apply (rowCut r) shapeCasts_S1x1000000_S1000000 (ix1 p) (ix2 (0 : Fin 1) p) (by
      rw [Shape.rowMajor_val_one, Shape.rowMajor_val_two]
      show 0 * 1000000 + p.val = p.val
      omega)).trans ?_
  exact rowCut_apply r p

/-! ## The three launches between the host operations -/

/-- The first launch's row, cut to the nodes, is the kernel's feature vector. -/
theorem unrow_nodeProj (x0 : FVec Ideal S1000000x2 .f32) (x4 : FVec Ideal S2x1 .f32) (d : FVec Ideal S1000000 .f32) :
    unrow (Region0.nodeProj (posPad x0) (rowPad d) x4) = feat x0 x4 d := by
  funext n
  obtain ⟨p, rfl⟩ : ∃ p : Fin 1000000, n = ix1 p := ⟨⟨(n 0).val, (n 0).isLt⟩, eq_ix1 n⟩
  rw [unrow_apply, Region0.nodeProj_apply, feat_apply]
  unfold Region0.nodeProjAt featAt
  rw [posPad_apply x0 (0 : Fin 2) p, posPad_apply x0 (1 : Fin 2) p, rowPad_apply d p]

/-- Re-laying two edge vectors as `[250000, 128]`, multiplying elementwise and re-laying back is the elementwise product. -/
theorem edgeMul_relaid (a b : FVec Ideal S32000000 .f32) :
    shapeCast S32000000 (Region1.edgeMul (shapeCast S250000x128 a shapeCasts_S32000000_S250000x128)
      (shapeCast S250000x128 b shapeCasts_S32000000_S250000x128)) shapeCasts_S250000x128_S32000000 = mulf a b := by
  have ha := shapeCast_shapeCast a shapeCasts_S32000000_S250000x128 shapeCasts_S250000x128_S32000000
  have hb := shapeCast_shapeCast b shapeCasts_S32000000_S250000x128 shapeCasts_S250000x128_S32000000
  funext e
  have ea := congrFun ha e
  have eb := congrFun hb e
  show (shapeCast S32000000 (fun i => shapeCast S250000x128 a shapeCasts_S32000000_S250000x128 i * shapeCast S250000x128 b shapeCasts_S32000000_S250000x128 i) shapeCasts_S250000x128_S32000000) e = a e * b e
  rw [← ea, ← eb]
  rfl

/-- Column `q` of the cut third-launch row, from the aggregate and degree vectors and the bias. -/
theorem rowCut_finalize (a d : FVec Ideal S1000000 .f32) (x5 : FVec Ideal S1 .f32) (p : Fin 1000000) :
    rowCut (Region2.finalize (rowPad a) (rowPad d) (shapeCast S1x1 x5 shapeCasts_S1_S1x1)) (ix2 (0 : Fin 1) p)
      = a (ix1 p) * Ideal.rsqrt (max (d (ix1 p)) one32) + x5 (ix1 (0 : Fin 1)) := by
  rw [rowCut_apply, Region2.finalize_apply]
  unfold Region2.finalizeAt
  rw [rowPad_apply a p, rowPad_apply d p]
  congr 1
  exact shapeCast_apply x5 shapeCasts_S1_S1x1 (ix2 (0 : Fin 1) (0 : Fin 1)) (ix1 (0 : Fin 1)) (by
    rw [Shape.rowMajor_val_one, Shape.rowMajor_val_two]
    show 0 = 0 * 1 + 0
    omega)

/-! ## The result buffer -/

variable (m : (ℓ : Loc nD τ sig) → Buf (Elt Ideal) ℓ) (ρ : Dev nD → PrngReg)

/-- The first launch's output array at its exit, from the arguments. -/
theorem v11_exit (c : Dev nD) : W5 m ρ c (Proc.devRef .tc main_v11) =
    Region0.nodeProj (posPad (m ((c : Thread nD τ).loc main_arg0))) (rowPad (deg (m ((c : Thread nD τ).loc main_arg2))))
      (m ((c : Thread nD τ).loc main_arg4)) := by
  refine (W5_arr m ρ c 3).trans ?_
  rw [Region0.array_eq (V4 m ρ) c, v8_entry, v10_entry, arg4_entry]

/-- The second launch's output array at its exit, re-laid flat, from the arguments. -/
theorem v23_exit (c : Dev nD) : shapeCast S32000000 (W7 m ρ c (Proc.devRef .tc main_v23)) shapeCasts_S250000x128_S32000000 =
    mulf (Host.gather gather_S1000000_S32000000x1_S32000000_n_0_n_n_0_1_1
        (feat (m ((c : Thread nD τ).loc main_arg0)) (m ((c : Thread nD τ).loc main_arg4)) (deg (m ((c : Thread nD τ).loc main_arg2))))
        (broadcastInDim S32000000x1 ![0] bcast_S32000000_S32000000x1_0 (wrapIdx (m ((c : Thread nD τ).loc main_arg2)))))
      (m ((c : Thread nD τ).loc main_arg1)) := by
  have h7 : W7 m ρ c (Proc.devRef .tc main_v23) = Region1.edgeMul (V6 m ρ c main_v21) (V6 m ρ c main_v22) :=
    (W7_arr m ρ c 2).trans (Region1.array_eq (V6 m ρ) c)
  rw [h7, v21_entry, v22_entry, v11_exit, unrow_nodeProj]
  exact edgeMul_relaid _ _

/-- THE KERNEL'S VALUE: the result buffer at the last boundary is the specification at the kernel's feature vector. -/
theorem kernel_value (c : Dev nD) : W14 m ρ c (Proc.devRef .tc main_v34) =
    outOf (feat (m ((c : Thread nD τ).loc main_arg0)) (m ((c : Thread nD τ).loc main_arg4)) (deg (m ((c : Thread nD τ).loc main_arg2))))
      (m ((c : Thread nD τ).loc main_arg1)) (m ((c : Thread nD τ).loc main_arg2)) (m ((c : Thread nD τ).loc main_arg3))
      (m ((c : Thread nD τ).loc main_arg5)) := by
  have h13 : W13 m ρ c (Proc.devRef .tc main_v33) =
      Region2.finalize (V12 m ρ c main_v29) (V12 m ρ c main_v31) (V12 m ρ c main_v32) :=
    (W13_arr m ρ c 3).trans (Region2.array_eq (V12 m ρ) c)
  rw [v34_exit, h13, v29_entry, v31_entry, v32_entry, v23_exit]
  funext i
  obtain ⟨p, rfl⟩ : ∃ p : Fin 1000000, i = ix2 (0 : Fin 1) p :=
    ⟨⟨(i 1).val, (i 1).isLt⟩, by
      funext a
      match a with
      | ⟨0, _⟩ =>
        apply Fin.ext
        have h : (i 0).val < 1 := (i 0).isLt
        show (i 0).val = 0
        omega
      | ⟨1, _⟩ => rfl⟩
  rw [rowCut_finalize, outOf_apply]
  rfl

end Cert.KernelIdeal.KernelValue

end
-- ==== Proof.LibColumnGatherScatter.lean ====
/-
  Two host operations over a COLUMN `[k, 1]` read through the same operations over the VECTOR `[k]`.

  jnp indexes and accumulates a per-node column `f[:, None]` with the same edge list as it would the flat vector: `f[idx]` on an
  `[N, 1]` table prints as a gather with one collapsed axis and one offset axis of extent one, and `segment_sum` of `[n, 1]` messages
  prints as a scatter-add with one inserted window axis and one update window axis of extent one. Row `p` of the column results is
  entry `p` of the vector results of the flattened operands: the extra axis only ever carries the coordinate `0`.
-/
import Idealize.ShloMosaic.PureOps.Ideal
import Idealize.ShloMosaic.Lib.ValueIdx
import Idealize.ShloMosaic.Lib.StableHlo.Predicate

noncomputable section

open scoped BigOperators

namespace Idealize.ShloMosaic.ColumnOps

open Idealize.ShloMosaic Idealize.ShloMosaic.ValueIdx

variable {N n w : Nat}

/-- The flat vector under a column: entry `p` is row `p` of the column. -/
def flat {α : Type} {k : Nat} (x : (⟨2, ![k, 1]⟩ : Shape).Idx → α) : (⟨1, ![k]⟩ : Shape).Idx → α :=
  fun i => x (ix2 (⟨(i 0).val, (i 0).isLt⟩ : Fin k) (0 : Fin 1))

theorem flat_apply {α : Type} {k : Nat} (x : (⟨2, ![k, 1]⟩ : Shape).Idx → α) (p : Fin k) : flat x (ix1 p) = x (ix2 p (0 : Fin 1)) := rfl

/-- The rank-1 index at a coordinate, in its two spellings. -/
theorem ofFin_eq_ix1 {k : Nat} (p : Fin k) : Shape.Idx.ofFin p = ix1 p := by
  funext a; match a with | ⟨0, _⟩ => rfl

/-- Row `p` of a column, in its two spellings. -/
theorem ixP_eq_ix2 {k : Nat} (p : Fin k) : StableHlo.Predicate.ixP p = ix2 p (0 : Fin 1) := by
  funext a; match a with | ⟨0, _⟩ => rfl | ⟨1, _⟩ => rfl

/-- THE TAKE FROM A COLUMN TABLE. jnp's `table[idx]` over an `[N, 1]` table prints as a gather whose start indices are the `[n, 1]`
    column of positions, operand axis 0 collapsed and start-indexed, result axis 1 the offset axis over operand axis 1 (extent one),
    no batching axes, the index vector on axis 1. Row `p` of the result reads the row of the table that the flat take of the
    flattened table reads at `p`. -/
theorem gather_col {α : Type} (dc : GatherDims ⟨2, ![N, 1]⟩ ⟨2, ![n, 1]⟩ ⟨2, ![n, 1]⟩) (dv : GatherDims ⟨1, ![N]⟩ ⟨2, ![n, 1]⟩ ⟨1, ![n]⟩)
    (hcoff : dc.offsetDims = [1]) (hccoll : dc.collapsedSliceDims = [0]) (hcob : dc.operandBatchingDims = [])
    (hcsb : dc.startIndicesBatchingDims = []) (hcsim : dc.startIndexMap = [0]) (hcivd : dc.indexVectorDim = 1)
    (hvcoll : dv.collapsedSliceDims = [0]) (hvob : dv.operandBatchingDims = []) (hvsim : dv.startIndexMap = [0]) (hvivd : dv.indexVectorDim = 1)
    (x : (⟨2, ![N, 1]⟩ : Shape).Idx → α) (idx : IVec ⟨2, ![n, 1]⟩ w) (p : Fin n) (hN : 0 < N) :
    Host.gather dc x idx (ix2 p (0 : Fin 1)) = Host.gather dv (flat x) idx (ix1 p) := by
  -- the vector side: the flat take reads the clamped start index of row p
  have hv := StableHlo.Predicate.gather_take dv hvcoll hvob hvsim hvivd (flat x) idx p hN
  rw [ofFin_eq_ix1, ofFin_eq_ix1, flat_apply] at hv
  simp only [ixP_eq_ix2] at hv
  rw [hv]
  -- the column side: the operand index of row (p, 0) is (clamped start index, 0)
  unfold Host.gather
  congr 1
  funext a
  match a with
  | ⟨1, _⟩ => exact Subsingleton.elim (α := Fin 1) _ _
  | ⟨0, _⟩ =>
    apply Fin.ext
    have hb : (0 : Fin 2) ∉ dc.operandBatchingDims := by rw [hcob]; exact List.not_mem_nil
    have hk : (0 : Fin 2) ∉ dc.sKept := by rw [GatherDims.mem_sKept, hccoll]; simp
    have hm : (0 : Fin 2) ∈ dc.startIndexMap := by rw [hcsim]; exact List.mem_singleton.mpr rfl
    have hsl : dc.sliceSizes 0 = 1 := dc.slice_collapsed 0 (by rw [hccoll]; exact List.mem_singleton.mpr rfl)
    show dc.start (ix2 p (0 : Fin 1)) idx 0 + dc.batchCoord (ix2 p (0 : Fin 1)) 0 + dc.offCoord (ix2 p (0 : Fin 1)) 0
      = min (idx (ix2 p (0 : Fin 1))).toInt.toNat (N - 1)
    rw [GatherDims.batchCoord_eq_zero _ _ _ hb, GatherDims.offCoord_eq_zero _ _ _ hk]
    simp only [Nat.add_zero]
    unfold GatherDims.start
    rw [dif_pos hm]
    show min (idx _).toInt.toNat (N - dc.sliceSizes 0) = min (idx (ix2 p (0 : Fin 1))).toInt.toNat (N - 1)
    rw [hsl]
    congr 3
    congr 1
    funext b
    match b with
    | ⟨0, _⟩ =>
      -- the batch coordinate: the result's batch axis is its axis 0 (axis 1 is the offset axis)
      unfold GatherDims.siIdx
      rw [dif_neg (by rw [hcivd]; simp)]
      unfold GatherDims.siCoord
      apply Fin.ext
      simp only [Fin.val_cast]
      have e : ∀ X : Fin 2, X ∈ dc.batchDims → ((ix2 p (0 : Fin 1) : (⟨2, ![n, 1]⟩ : Shape).Idx) X).val = p.val := by
        intro X hX
        have hX1 : X ∉ dc.offsetDims := by
          have := (List.mem_filter.1 hX).2
          simpa using this
        rw [hcoff] at hX1
        match X with
        | ⟨0, _⟩ => rfl
        | ⟨1, _⟩ => exact absurd (List.mem_singleton.mpr rfl) hX1
      exact e _ (List.getElem_mem _)
    | ⟨1, _⟩ =>
      unfold GatherDims.siIdx
      rw [dif_pos (by rw [hcivd])]
      apply Fin.ext
      show List.idxOf (0 : Fin 2) dc.startIndexMap = 0
      rw [hcsim]; simp

/-- A column's rows and a vector's entries are the same index set. -/
def colEquiv (k : Nat) : (⟨2, ![k, 1]⟩ : Shape).Idx ≃ (⟨1, ![k]⟩ : Shape).Idx where
  toFun j := ix1 (⟨(j 0).val, (j 0).isLt⟩ : Fin k)
  invFun e := ix2 (⟨(e 0).val, (e 0).isLt⟩ : Fin k) (0 : Fin 1)
  left_inv j := by
    funext a
    match a with
    | ⟨0, _⟩ => rfl
    | ⟨1, _⟩ => exact Subsingleton.elim (α := Fin 1) _ _
  right_inv e := by
    funext a
    match a with
    | ⟨0, _⟩ => rfl

/-- Where update row `j` of a column reads its scatter index: row `j 0` of the index column (the update's axis 0 is its one
    scatter axis, axis 1 being the window axis; the index vector's axis has extent one). -/
theorem siIdx_col (dc : ScatterDims ⟨2, ![N, 1]⟩ ⟨2, ![n, 1]⟩ ⟨2, ![n, 1]⟩)
    (hcuw : dc.updateWindowDims = [1]) (hcivd : dc.indexVectorDim = 1)
    (j : (⟨2, ![n, 1]⟩ : Shape).Idx) (c : Fin dc.scatterDimsToOperandDims.length) :
    dc.siIdx j c = ix2 (⟨(j 0).val, (j 0).isLt⟩ : Fin n) (0 : Fin 1) := by
  funext b
  match b with
  | ⟨1, _⟩ => exact Subsingleton.elim (α := Fin 1) _ _
  | ⟨0, _⟩ =>
    unfold ScatterDims.siIdx
    rw [dif_neg (by rw [hcivd]; simp)]
    unfold ScatterDims.siCoord
    apply Fin.ext
    simp only [Fin.val_cast]
    have e : ∀ X : Fin 2, X ∈ dc.uScatter → (j X).val = (j 0).val := by
      intro X hX
      have hX1 : X ∉ dc.updateWindowDims := by simpa using (List.mem_filter.1 hX).2
      rw [hcuw] at hX1
      match X with
      | ⟨0, _⟩ => rfl
      | ⟨1, _⟩ => exact absurd (List.mem_singleton.mpr rfl) hX1
    exact e _ (List.getElem_mem _)

/-- Where update entry `e` of a vector reads its scatter index: row `e 0` of the index column. -/
theorem siIdx_vec (dv : ScatterDims ⟨1, ![N]⟩ ⟨2, ![n, 1]⟩ ⟨1, ![n]⟩) (hvivd : dv.indexVectorDim = 1)
    (e : (⟨1, ![n]⟩ : Shape).Idx) (c : Fin dv.scatterDimsToOperandDims.length) :
    dv.siIdx e c = ix2 (⟨(e 0).val, (e 0).isLt⟩ : Fin n) (0 : Fin 1) := by
  funext b
  match b with
  | ⟨1, _⟩ => exact Subsingleton.elim (α := Fin 1) _ _
  | ⟨0, _⟩ =>
    unfold ScatterDims.siIdx
    rw [dif_neg (by rw [hvivd]; simp)]
    unfold ScatterDims.siCoord
    apply Fin.ext
    simp only [Fin.val_cast]
    have h : ∀ X : Fin 1, (e X).val = (e 0).val := fun X => by
      have hX : X = 0 := Subsingleton.elim _ _
      subst hX; rfl
    exact h _

/-- An update row of the column lands on operand row `p` exactly when its scatter index, read signed, is `p`: on axis 0 the
    start is the index and the window coordinate is zero (the axis is inserted); on axis 1 the start is zero and the window
    coordinate, a coordinate of an axis of extent one, is zero. -/
theorem resultIdx_col (dc : ScatterDims ⟨2, ![N, 1]⟩ ⟨2, ![n, 1]⟩ ⟨2, ![n, 1]⟩)
    (hcuw : dc.updateWindowDims = [1]) (hciw : dc.insertedWindowDims = [0]) (hcsd : dc.scatterDimsToOperandDims = [0]) (hcivd : dc.indexVectorDim = 1)
    (idx : IVec ⟨2, ![n, 1]⟩ w) (j : (⟨2, ![n, 1]⟩ : Shape).Idx) (p : Fin N) :
    dc.resultIdx? j idx = some (ix2 p (0 : Fin 1)) ↔
      (idx (ix2 (⟨(j 0).val, (j 0).isLt⟩ : Fin n) (0 : Fin 1))).toInt = (p.val : Int) := by
  have hm : (0 : Fin 2) ∈ dc.scatterDimsToOperandDims := by rw [hcsd]; exact List.mem_singleton.mpr rfl
  have hs0 : dc.start j idx 0 = (idx (ix2 (⟨(j 0).val, (j 0).isLt⟩ : Fin n) (0 : Fin 1))).toInt := by
    unfold ScatterDims.start
    rw [dif_pos hm, siIdx_col dc hcuw hcivd]
  have hs1 : dc.start j idx 1 = 0 := by
    unfold ScatterDims.start
    rw [dif_neg (by rw [hcsd]; simp)]
  have hw0 : dc.window j 0 = 0 := by
    unfold ScatterDims.window
    rw [dif_neg (by simp [ScatterDims.sKept, Shape.kept, hciw])]
  have hw1 : dc.window j 1 = 0 := by
    unfold ScatterDims.window
    split
    · have e : ∀ X : Fin 2, X ∈ dc.updateWindowDims → (j X).val = 0 := by
        intro X hX
        rw [hcuw] at hX
        obtain rfl := List.mem_singleton.1 hX
        have h1 : (j 1).val < 1 := (j 1).isLt
        omega
      exact e _ (List.getElem_mem _)
    · rfl
  unfold ScatterDims.resultIdx?
  split
  · rename_i h
    constructor
    · intro hh
      have h0 := congrFun (Option.some.inj hh) 0
      have h0v : (dc.start j idx 0 + dc.window j 0).toNat = p.val := congrArg Fin.val h0
      have h00 := (h 0).1
      rw [hs0, hw0] at h0v h00
      omega
    · intro hh
      congr 1
      funext a
      match a with
      | ⟨1, _⟩ => exact Subsingleton.elim (α := Fin 1) _ _
      | ⟨0, _⟩ =>
        apply Fin.ext
        show (dc.start j idx 0 + dc.window j 0).toNat = p.val
        rw [hs0, hw0, hh]
        omega
  · rename_i h
    constructor
    · intro hh
      exact absurd hh (by simp)
    · intro hh
      exfalso
      apply h
      intro a
      match a with
      | ⟨0, _⟩ =>
        show 0 ≤ dc.start j idx 0 + (dc.window j 0 : Int) ∧ dc.start j idx 0 + (dc.window j 0 : Int) < ((N : Nat) : Int)
        rw [hs0, hw0, hh]
        have := p.isLt
        omega
      | ⟨1, _⟩ =>
        show 0 ≤ dc.start j idx 1 + (dc.window j 1 : Int) ∧ dc.start j idx 1 + (dc.window j 1 : Int) < ((1 : Nat) : Int)
        rw [hs1, hw1]
        omega

/-- An update entry of the vector lands on operand entry `p` exactly when its scatter index, read signed, is `p`. -/
theorem resultIdx_vec (dv : ScatterDims ⟨1, ![N]⟩ ⟨2, ![n, 1]⟩ ⟨1, ![n]⟩)
    (hviw : dv.insertedWindowDims = [0]) (hvsd : dv.scatterDimsToOperandDims = [0]) (hvivd : dv.indexVectorDim = 1)
    (idx : IVec ⟨2, ![n, 1]⟩ w) (e : (⟨1, ![n]⟩ : Shape).Idx) (p : Fin N) :
    dv.resultIdx? e idx = some (ix1 p) ↔
      (idx (ix2 (⟨(e 0).val, (e 0).isLt⟩ : Fin n) (0 : Fin 1))).toInt = (p.val : Int) := by
  have hm : (0 : Fin 1) ∈ dv.scatterDimsToOperandDims := by rw [hvsd]; exact List.mem_singleton.mpr rfl
  have hs0 : dv.start e idx 0 = (idx (ix2 (⟨(e 0).val, (e 0).isLt⟩ : Fin n) (0 : Fin 1))).toInt := by
    unfold ScatterDims.start
    rw [dif_pos hm, siIdx_vec dv hvivd]
  have hw0 : dv.window e 0 = 0 := by
    unfold ScatterDims.window
    rw [dif_neg (by simp [ScatterDims.sKept, Shape.kept, hviw])]
  unfold ScatterDims.resultIdx?
  split
  · rename_i h
    constructor
    · intro hh
      have h0 := congrFun (Option.some.inj hh) 0
      have h0v : (dv.start e idx 0 + dv.window e 0).toNat = p.val := congrArg Fin.val h0
      have h00 := (h 0).1
      rw [hs0, hw0] at h0v h00
      omega
    · intro hh
      congr 1
      funext a
      match a with
      | ⟨0, _⟩ =>
        apply Fin.ext
        show (dv.start e idx 0 + dv.window e 0).toNat = p.val
        rw [hs0, hw0, hh]
        omega
  · rename_i h
    constructor
    · intro hh
      exact absurd hh (by simp)
    · intro hh
      exfalso
      apply h
      intro a
      match a with
      | ⟨0, _⟩ =>
        show 0 ≤ dv.start e idx 0 + (dv.window e 0 : Int) ∧ dv.start e idx 0 + (dv.window e 0 : Int) < ((N : Nat) : Int)
        rw [hs0, hw0, hh]
        have := p.isLt
        omega

/-- THE SCATTER-ADD INTO A COLUMN. jnp's `segment_sum` of `[n, 1]` updates into an `[N, 1]` operand prints as a scatter-add whose
    scatter indices are the `[n, 1]` column of positions, operand axis 0 inserted and scatter-indexed, update axis 1 the window axis
    over operand axis 1 (extent one), the index vector on axis 1. Over the extended reals row `p` of the result is entry `p` of the
    flat scatter-add of the flattened operand and updates: an update row lands on operand row `p` exactly when the flat update does. -/
theorem scatterAdd_col (dc : ScatterDims ⟨2, ![N, 1]⟩ ⟨2, ![n, 1]⟩ ⟨2, ![n, 1]⟩) (dv : ScatterDims ⟨1, ![N]⟩ ⟨2, ![n, 1]⟩ ⟨1, ![n]⟩)
    (hcuw : dc.updateWindowDims = [1]) (hciw : dc.insertedWindowDims = [0]) (hcsd : dc.scatterDimsToOperandDims = [0]) (hcivd : dc.indexVectorDim = 1)
    (hvuw : dv.updateWindowDims = []) (hviw : dv.insertedWindowDims = [0]) (hvsd : dv.scatterDimsToOperandDims = [0]) (hvivd : dv.indexVectorDim = 1)
    (x : FVec Ideal ⟨2, ![N, 1]⟩ .f32) (idx : IVec ⟨2, ![n, 1]⟩ w) (upd : FVec Ideal ⟨2, ![n, 1]⟩ .f32) (p : Fin N) :
    Host.scatterAdd dc x idx upd (ix2 p (0 : Fin 1)) = Host.scatterAdd dv (flat x) idx (flat upd) (ix1 p) := by
  unfold Host.scatterAdd
  rw [Ideal.hostScatterAdd_def, Ideal.hostScatterAdd_def]
  unfold Ideal.hostScatterAdd
  show x (ix2 p (0 : Fin 1)) + _ = flat x (ix1 p) + _
  rw [flat_apply]
  congr 1
  -- the two sums run over the same update rows, matched by the row number
  refine Finset.sum_equiv (colEquiv n) ?_ ?_
  · intro j
    rw [Finset.mem_filter, Finset.mem_filter, resultIdx_col dc hcuw hciw hcsd hcivd, resultIdx_vec dv hviw hvsd hvivd]
    simp only [Finset.mem_univ, true_and]
    exact Iff.rfl
  · intro j _
    exact congrArg upd ((colEquiv n).left_inv j).symm

end Idealize.ShloMosaic.ColumnOps

end
-- ==== Proof.RefValue.lean ====
/-
  The reference program's result, read index by index, is the common specification with the reference's feature.

  The reference keeps every per-node quantity as a column `[1000000, 1]` and every per-edge quantity as a column `[32000000, 1]`: it
  scales the positions by the source-degree factor, contracts with the weight column, takes the rows at the source nodes, multiplies
  by the weights, scatter-adds at the destination nodes, scales by the destination-degree factor, adds the bias and transposes to
  `[1, 1000000]`. Row by row the column take and the column scatter-add are the flat ones of the flattened operands.
-/
import proofs.«174512_j52106543235761_1_alg».proof.Proof.Gen.ReferenceIdeal.Read
import proofs.«174512_j52106543235761_1_alg».proof.Proof.Spec
import proofs.«174512_j52106543235761_1_alg».proof.Proof.LibColumnGatherScatter
import Idealize.ShloMosaic.Lib.Pipeline.Value
import Idealize.ShloMosaic.Lib.ValueIdx
import Idealize.ShloMosaic.PureOps.Ideal.Laws

noncomputable section

namespace Cert.ReferenceIdeal.RefValue

open Cert.KernelIdeal.Spec Idealize.ShloMosaic Idealize.ShloMosaic.ValueIdx Idealize.ShloMosaic.ColumnOps

open Cert.ReferenceIdeal.Read in
/-- The source-degree vector of the reference is the specification's. -/
private theorem v3_eq (x2 : IVec Cert.KernelIdeal.S32000000 32) : val_main_v3 (F := Ideal) x2 = deg x2 := rfl

open Cert.ReferenceIdeal.Read in
/-- The destination-degree vector of the reference is the specification's. -/
private theorem v6_eq (x3 : IVec Cert.KernelIdeal.S32000000 32) : val_main_v6 (F := Ideal) x3 = deg x3 := rfl

open Cert.ReferenceIdeal.Read in
/-- Row `p` of the reference's projected-feature column is the specification's reference feature of node `p`. -/
private theorem flat_v14 (x0 : FVec Ideal Cert.KernelIdeal.S1000000x2 .f32) (x2 : IVec Cert.KernelIdeal.S32000000 32)
    (x4 : FVec Ideal Cert.KernelIdeal.S2x1 .f32) :
    flat (val_main_v14 (F := Ideal) x0 x2 x4) = featRef x0 x4 (deg x2) := by
  funext e
  obtain ⟨p, rfl⟩ : ∃ p : Fin 1000000, e = ix1 p := ⟨e 0, eq_ix1 e⟩
  rw [flat_apply, featRef_apply, val_main_v14_apply, Fin.sum_univ_two]
  have hl0 : lidx_main_v14 (ix2 p (0 : Fin 1)) 0 = ix2 p (0 : Fin 2) :=
    funext fun a => Fin.ext (by match a with | ⟨0, _⟩ => rfl | ⟨1, _⟩ => rfl)
  have hl1 : lidx_main_v14 (ix2 p (0 : Fin 1)) 1 = ix2 p (1 : Fin 2) :=
    funext fun a => Fin.ext (by match a with | ⟨0, _⟩ => rfl | ⟨1, _⟩ => rfl)
  have hr0 : ridx_main_v14 (ix2 p (0 : Fin 1)) 0 = ix2 (0 : Fin 2) (0 : Fin 1) :=
    funext fun a => Fin.ext (by match a with | ⟨0, _⟩ => rfl | ⟨1, _⟩ => rfl)
  have hr1 : ridx_main_v14 (ix2 p (0 : Fin 1)) 1 = ix2 (1 : Fin 2) (0 : Fin 1) :=
    funext fun a => Fin.ext (by match a with | ⟨0, _⟩ => rfl | ⟨1, _⟩ => rfl)
  have h12 : ∀ k : Fin 2, idx_main_v12 (ix2 p k) = ix2 p (0 : Fin 1) := fun k =>
    funext fun a => Fin.ext (by match a with | ⟨0, _⟩ => rfl | ⟨1, _⟩ => rfl)
  have h11 : idx_main_v11 (ix2 p (0 : Fin 1)) = ix1 p :=
    funext fun a => Fin.ext (by match a with | ⟨0, _⟩ => rfl)
  rw [hl0, hl1, hr0, hr1, val_main_v13_apply, val_main_v13_apply, val_main_v12_apply, val_main_v12_apply, h12,
    val_main_v11_apply, h11, val_main_v8_apply, val_main_v7_apply, val_main_call0_v1_apply, val_main_call0_v0_apply,
    val_main_cst_2_apply, v3_eq]
  simp only [Ideal.mulf_def, Ideal.maximumf_def, Ideal.hostUnary_rsqrt_def, Ideal.ofBits_def]
  unfold featRefAt
  rw [max_comm (Ideal.ofBits .f32 0x3F800000#32)]

open Cert.ReferenceIdeal.Read in
/-- The flattened column of zeros the reference accumulates into is the vector of zeros. -/
private theorem flat_v24 :
    flat (val_main_v24 (F := Ideal)) = broadcastInDim Cert.KernelIdeal.S1000000 ![] Cert.KernelIdeal.Gen.bcast_S_S1000000
      (constant (F := Ideal) Cert.KernelIdeal.S_ .f32 0x00000000#32) := by
  funext e
  obtain ⟨p, rfl⟩ : ∃ p : Fin 1000000, e = ix1 p := ⟨e 0, eq_ix1 e⟩
  rw [flat_apply, val_main_v24_apply, val_main_cst_5_apply]
  exact ((val_main_v1_apply (F := Ideal) (ix1 p)).trans (val_main_cst_0_apply _)).symm

open Cert.ReferenceIdeal.Read in
/-- Row `e` of the reference's message column is the gathered reference feature at the wrapped source node times the edge weight. -/
private theorem flat_v23 (x0 : FVec Ideal Cert.KernelIdeal.S1000000x2 .f32) (x1 : FVec Ideal Cert.KernelIdeal.S32000000 .f32)
    (x2 : IVec Cert.KernelIdeal.S32000000 32) (x4 : FVec Ideal Cert.KernelIdeal.S2x1 .f32) :
    flat (val_main_v23 (F := Ideal) x0 x1 x2 x4)
      = mulf (Host.gather Cert.KernelIdeal.gather_S1000000_S32000000x1_S32000000_n_0_n_n_0_1_1 (featRef x0 x4 (deg x2))
          (broadcastInDim Cert.KernelIdeal.S32000000x1 ![0] Cert.KernelIdeal.Gen.bcast_S32000000_S32000000x1_0 (wrapIdx x2))) x1 := by
  funext e
  obtain ⟨p, rfl⟩ : ∃ p : Fin 32000000, e = ix1 p := ⟨e 0, eq_ix1 e⟩
  have h22 : idx_main_v22 (ix2 p (0 : Fin 1)) = ix1 p :=
    funext fun a => Fin.ext (by match a with | ⟨0, _⟩ => rfl)
  rw [flat_apply, val_main_v23_apply, val_main_v22_apply, h22, mulf_apply, Ideal.mulf_def]
  congr 1
  unfold val_main_v21
  rw [gather_col Cert.ReferenceIdeal.gather_S1000000x1_S32000000x1_S32000000x1_1_0_n_n_0_1_11
    Cert.KernelIdeal.gather_S1000000_S32000000x1_S32000000_n_0_n_n_0_1_1 rfl rfl rfl rfl rfl rfl rfl rfl rfl rfl _ _ p (by decide),
    flat_v14]
  rfl

open Cert.ReferenceIdeal.Read in
/-- Row `q` of the reference's aggregate column is the specification's aggregate at the reference's feature. -/
private theorem v26_row (x0 : FVec Ideal Cert.KernelIdeal.S1000000x2 .f32) (x1 : FVec Ideal Cert.KernelIdeal.S32000000 .f32)
    (x2 x3 : IVec Cert.KernelIdeal.S32000000 32) (x4 : FVec Ideal Cert.KernelIdeal.S2x1 .f32) (q : Fin 1000000) :
    val_main_v26 (F := Ideal) x0 x1 x2 x3 x4 (ix2 q (0 : Fin 1)) = aggOf (featRef x0 x4 (deg x2)) x1 x2 x3 (ix1 q) := by
  unfold val_main_v26
  rw [scatterAdd_col Cert.ReferenceIdeal.scatter_S1000000x1_S32000000x1_S32000000x1_1_0_0_1
    Cert.KernelIdeal.scatter_S1000000_S32000000x1_S32000000_n_0_0_1 rfl rfl rfl rfl rfl rfl rfl rfl _ _ _ q,
    flat_v24, flat_v23]
  rfl

open Cert.ReferenceIdeal.Read in
/-- The reference's result is `outOf` at the reference's feature vector and the source degrees. -/
theorem reference_value (x0 : FVec Ideal Cert.KernelIdeal.S1000000x2 .f32) (x1 : FVec Ideal Cert.KernelIdeal.S32000000 .f32)
    (x2 x3 : IVec Cert.KernelIdeal.S32000000 32) (x4 : FVec Ideal Cert.KernelIdeal.S2x1 .f32) (x5 : FVec Ideal Cert.KernelIdeal.S1 .f32) :
    Cert.ReferenceIdeal.Read.val_main_v32 (F := Ideal) x0 x1 x2 x3 x4 x5 = outOf (featRef x0 x4 (deg x2)) x1 x2 x3 x5 := by
  funext i
  obtain ⟨z, q, rfl⟩ : ∃ (z : Fin 1) (q : Fin 1000000), i = ix2 z q := ⟨i 0, i 1, eq_ix2 i⟩
  obtain rfl : z = 0 := Subsingleton.elim _ _
  have h32 : idx_main_v32 (ix2 (0 : Fin 1) q) = ix2 q (0 : Fin 1) :=
    funext fun a => Fin.ext (by match a with | ⟨0, _⟩ => rfl | ⟨1, _⟩ => rfl)
  have h27 : idx_main_v27 (ix2 q (0 : Fin 1)) = ix1 q :=
    funext fun a => Fin.ext (by match a with | ⟨0, _⟩ => rfl)
  have h2930 : idx_main_v29 (idx_main_v30 (ix2 q (0 : Fin 1))) = ix1 (0 : Fin 1) :=
    funext fun a => Fin.ext (by match a with | ⟨0, _⟩ => rfl)
  rw [outOf_apply, val_main_v32_apply, h32, val_main_v31_apply, val_main_v28_apply, v26_row, val_main_v27_apply, h27,
    val_main_v10_apply, val_main_v9_apply, val_main_call1_v1_apply, val_main_call1_v0_apply, val_main_cst_3_apply, v6_eq,
    val_main_v30_apply, val_main_v29_apply, h2930]
  simp only [Ideal.addf_def, Ideal.mulf_def, Ideal.maximumf_def, Ideal.hostUnary_rsqrt_def, Ideal.ofBits_def]
  unfold outAt
  rw [max_comm (Ideal.ofBits .f32 0x3F800000#32)]

end Cert.ReferenceIdeal.RefValue

end
-- ==== Proof.Algebra.lean ====
/-
  The one law that joins the two programs: scaling before or after the two-term contraction.

  The kernel forms `(x₀·w₀ + x₁·w₁)·s`, the reference `(x₀·s)·w₀ + (x₁·s)·w₁`, with `s = rsqrt(max(d, 1))`. On the extended reals
  this is distributivity, which fails at infinities; it holds here because every factor is a real number: the positions and the
  weights by the precondition, and `s` because `max(d, 1) ≥ 1` for every extended real `d`, where `rsqrt` is a real in `[0, 1]`
  (`0` at `+∞`).
-/
import proofs.«174512_j52106543235761_1_alg».proof.Proof.Spec
import Idealize.ShloMosaic.PureOps.Ideal
import Idealize.ShloMosaic.PureOps.Ideal.Laws
import Idealize.ShloMosaic.Lib.IdealHost
import Idealize.ShloMosaic.Lib.ValueIdx

noncomputable section

namespace Cert.KernelIdeal.Algebra

open Cert.KernelIdeal Cert.KernelIdeal.Spec Idealize.ShloMosaic Idealize.ShloMosaic.ValueIdx

/-- The degree scale is a real number whatever the degree: `max(d, 1) ≥ 1`, and `rsqrt` of an extended real `≥ 1` is a real. -/
theorem rsqrt_max_one_real (d : EReal) : ∃ r : ℝ, Ideal.rsqrt (max d one32) = (r : EReal) := by
  have h1 : one32 = ((1 : ℝ) : EReal) := by
    show Ideal.ofBits .f32 0x3F800000#32 = ((1 : ℝ) : EReal)
    rw [Ideal.ofBits_one_f32]; rfl
  rw [h1]
  induction d using EReal.rec with
  | bot =>
    refine ⟨(Real.sqrt 1)⁻¹, ?_⟩
    rw [max_eq_right bot_le, Ideal.rsqrt_coe, if_neg (by norm_num), if_neg (by norm_num)]
  | top =>
    refine ⟨0, ?_⟩
    rw [max_eq_left le_top, Ideal.rsqrt_top]; rfl
  | coe r =>
    refine ⟨(Real.sqrt (max r 1))⁻¹, ?_⟩
    have hm : max (r : EReal) ((1 : ℝ) : EReal) = ((max r 1 : ℝ) : EReal) := (EReal.coe_strictMono.monotone.map_max (a := r) (b := 1)).symm
    have hpos : (0 : ℝ) < max r 1 := lt_of_lt_of_le one_pos (le_max_right r 1)
    rw [hm, Ideal.rsqrt_coe, if_neg (not_lt.mpr hpos.le), if_neg (ne_of_gt hpos)]

/-- With real positions and real weights the reference's feature (scale, then contract) is the kernel's (contract, then scale). -/
theorem featRef_eq_feat (x0 : FVec Ideal S1000000x2 .f32) (x4 : FVec Ideal S2x1 .f32) (dout : FVec Ideal S1000000 .f32)
    (h0 : ∀ i, ∃ r : ℝ, x0 i = (r : EReal)) (h4 : ∀ i, ∃ r : ℝ, x4 i = (r : EReal)) :
    featRef x0 x4 dout = feat x0 x4 dout := by
  funext n
  show featRefAt x0 x4 dout ⟨(n 0).val, (n 0).isLt⟩ = featAt x0 x4 dout ⟨(n 0).val, (n 0).isLt⟩
  generalize (⟨(n 0).val, (n 0).isLt⟩ : Fin 1000000) = p
  unfold featRefAt featAt
  obtain ⟨a, ha⟩ := h0 (ix2 p (0 : Fin 2))
  obtain ⟨b, hb⟩ := h0 (ix2 p (1 : Fin 2))
  obtain ⟨u, hu⟩ := h4 (ix2 (0 : Fin 2) (0 : Fin 1))
  obtain ⟨v, hv⟩ := h4 (ix2 (1 : Fin 2) (0 : Fin 1))
  obtain ⟨s, hs⟩ := rsqrt_max_one_real (dout (ix1 p))
  rw [ha, hb, hu, hv, hs]
  rw [← EReal.coe_mul, ← EReal.coe_mul, ← EReal.coe_mul, ← EReal.coe_mul, ← EReal.coe_add,
    ← EReal.coe_mul, ← EReal.coe_mul, ← EReal.coe_add, ← EReal.coe_mul]
  congr 1
  ring

end Cert.KernelIdeal.Algebra

end
-- ==== Proof.Finite.lean ====
/-
  What the precondition gives: every position and every weight is a real number.

  `finite_inputs` is the conjunction, over the four float arguments, of "every entry's absolute value is below `+∞`". Over the
  extended reals `|x| < +∞` says exactly that `x` is a real number. The certificate uses it for the positions and the weight column.
-/
import proofs.«174512_j52106543235761_1_alg».proof.Defs
import proofs.«174512_j52106543235761_1_alg».proof.Proof.Gen.KernelIdeal
import proofs.«174512_j52106543235761_1_alg».proof.Proof.Gen.Pre_finite_inputs
import Idealize.ShloMosaic.PureOps.Ideal
import Idealize.ShloMosaic.Lib.ReduceAll
import Idealize.ShloMosaic.Lib.ValueIdx

noncomputable section

namespace Cert.KernelIdeal.Finite

open Cert.KernelIdeal Idealize.ShloMosaic Idealize.ShloMosaic.TcCoe Idealize.SL.Sem Idealize.ShloMosaic.ValueIdx

/-- The float pattern `0x7F800000` (all-ones exponent, zero fraction, sign clear) denotes `+∞`. -/
theorem inf_pattern : Ideal.ofBits .f32 0x7F800000#32 = (⊤ : EReal) := by
  simp [Ideal.ofBits, Ideal.ieee]

/-- An extended real whose absolute value `max x (-x)` lies strictly below `+∞` is a real number: at `⊥` and at `⊤` the absolute
    value is `⊤`. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => exact absurd h (by simp [Ideal.cmp])
  | top => exact absurd h (by simp [Ideal.cmp])
  | coe r => exact ⟨r, rfl⟩

/-- Under the precondition every entry of the positions and of the weight column is a real number, on every device. -/
theorem real_of_pre (m : (ℓ : Loc Cert.KernelIdeal.nD Cert.KernelIdeal.τ Cert.KernelIdeal.sig) → Buf (Elt Ideal) ℓ)
    (hpre : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg4) i = (r : EReal)) := by
  -- the predicate's one result word is 1: a conjunction of four "all entries" reductions
  have h := congrFun (hpre c) ValueIdx.ix0
  dsimp only [Cert.Pre_finite_inputs.fn, Cert.Pre_finite_inputs.fn_part1] at h
  -- split the conjunction ((positions ∧ edge weights) ∧ weight column) ∧ bias
  obtain ⟨h123, _⟩ := IntOp.andi_eq_one.1 (show IntOp.andi _ _ = 1#1 from h)
  obtain ⟨h12, h4⟩ := IntOp.andi_eq_one.1 (show IntOp.andi _ _ = 1#1 from h123)
  obtain ⟨h0, _⟩ := IntOp.andi_eq_one.1 (show IntOp.andi _ _ = 1#1 from h12)
  -- the rank-0 result shape has one index, so each reduction being 1 gives every entry's comparison
  have S : Subsingleton Cert.Pre_finite_inputs.S_.Idx := ⟨fun a b => funext fun d => d.elim0⟩
  refine ⟨fun i => ?_, fun i => ?_⟩
  · exact real_of_abs_lt_inf _ (Host.reduce_andi_all _ _ _ _ _ h0 i)
  · exact real_of_abs_lt_inf _ (Host.reduce_andi_all _ _ _ _ _ h4 i)

end Cert.KernelIdeal.Finite

end
-- ==== Proof.lean ====
/-
  The certificate of an edge-weighted graph convolution in three launches against its jnp reference.

  Both programs compute, per node `q`,  `(Σ_{e : dst e = q} feat(src e) · weight e) · rsqrt(max(degIn q, 1)) + b`  with
  `feat p = (x[p,0]·W[0] + x[p,1]·W[1]) · rsqrt(max(degOut p, 1))`. The kernel keeps per-node data as padded rows and per-edge data
  as `[250000, 128]` tiles, projects before it scales, and runs the projection, the per-edge product and the final scale-and-bias as
  three launches among the host's scatter-adds and gather; the reference keeps columns, scales before it contracts, and does
  everything on the host. The frames of the two kernel programs are generated; the reference's is its generated run. The value claim:
  the kernel's result is the common specification at the kernel's feature vector (the launches' whole-array functions chained through
  the host operations), the reference's is the specification at the reference's feature vector (its run read index by index, the
  column take and column scatter-add read as the flat ones), and the two feature vectors agree because every factor is a real number
  — the positions and weights by the precondition, the degree scale because `max(d, 1) ≥ 1`.
-/
import proofs.«174512_j52106543235761_1_alg».proof.Defs
import proofs.«174512_j52106543235761_1_alg».proof.Proof.Gen.Kernel
import proofs.«174512_j52106543235761_1_alg».proof.Proof.Gen.Kernel.Skeleton
import proofs.«174512_j52106543235761_1_alg».proof.Proof.Gen.Kernel.Launch
import proofs.«174512_j52106543235761_1_alg».proof.Proof.Gen.Kernel.Points
import proofs.«174512_j52106543235761_1_alg».proof.Proof.Gen.Kernel.Frame
import proofs.«174512_j52106543235761_1_alg».proof.Proof.Gen.KernelIdeal
import proofs.«174512_j52106543235761_1_alg».proof.Proof.Gen.KernelIdeal.Skeleton
import proofs.«174512_j52106543235761_1_alg».proof.Proof.Gen.KernelIdeal.Launch
import proofs.«174512_j52106543235761_1_alg».proof.Proof.Gen.KernelIdeal.Points
import proofs.«174512_j52106543235761_1_alg».proof.Proof.Gen.KernelIdeal.Frame
import proofs.«174512_j52106543235761_1_alg».proof.Proof.Gen.ReferenceIdeal
import proofs.«174512_j52106543235761_1_alg».proof.Proof.Gen.Pre_finite_inputs
import proofs.«174512_j52106543235761_1_alg».proof.Proof.Gen.ReferenceIdeal.Run
import proofs.«174512_j52106543235761_1_alg».proof.Proof.Gen.ReferenceIdeal.Read
import proofs.«174512_j52106543235761_1_alg».proof.Proof.Spec
import proofs.«174512_j52106543235761_1_alg».proof.Proof.KernelRun
import proofs.«174512_j52106543235761_1_alg».proof.Proof.KernelValue
import proofs.«174512_j52106543235761_1_alg».proof.Proof.RefValue
import proofs.«174512_j52106543235761_1_alg».proof.Proof.Algebra
import proofs.«174512_j52106543235761_1_alg».proof.Proof.Finite
import Idealize.ShloMosaic.Adequacy
import Idealize.ShloMosaic.Init

noncomputable section

namespace Cert.Proof

open Idealize.ShloMosaic Idealize.SL.Sem Cert.KernelIdeal.Spec

/-- The word-level kernel runs and keeps its arguments: the generated frame over the three launches. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the arguments, both programs end with the specification's result row at
    the kernel's feature vector. -/
theorem algebraic : Cert.algebraic_KernelIdeal_ReferenceIdeal := by
  intro m ρ m' ρ' hpre hagree
  refine ⟨fun c => outOf
      (feat (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (deg (m ((c.tc : Thread Cert.KernelIdeal.nD Cert.KernelIdeal.τ).loc Cert.KernelIdeal.main_arg2))))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.kernel_value m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5⟩ := hagree c
    obtain ⟨h0, h4⟩ := Cert.KernelIdeal.Finite.real_of_pre m hpre c
    refine (Cert.ReferenceIdeal.Read.val_main_v32_eq _ _ _ _ _ _).trans ?_
    rw [e0, e1, e2, e3, e4, e5, Cert.ReferenceIdeal.RefValue.reference_value,
      Cert.KernelIdeal.Algebra.featRef_eq_feat _ _ _ h0 h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
